-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : IVec S1x1600000 32 := (extractStridedSlice S1x1600000 ![1, 0] · slices_S2x1600000_S1x1600000_1_0) main_arg1
  let main_v55 : IVec S1600000 32 := shapeCast S1600000 main_v54 shapeCasts_S1x1600000_S1600000
  let main_c_20 : IVec S_ 32 := constantI S_ 32 0#32
  let main_v56 : IVec S1600000 32 := broadcastInDim S1600000 ![] bcast_S_S1600000 main_c_20
  let main_v57 : IVec S1600000 1 := cmpi .sge main_v55 main_v56
  let main_c_21 : IVec S_ 1 := constantI S_ 1 1#1
  let main_v58 : IVec S_ 1 := (fun x v => Host.reduce IntOp.andi x v reducesTo_S1600000_S_d0 h_S_) main_v57 main_c_21
  let main_v59 : IVec S_ 1 := andi main_v53 main_v58
  main_v59

def fn_part2 {F : FTy → Type} [FloatOps F] (main_arg1 : IVec S2x1600000 32) (main_arg8 : FVec F S64x64 .f32) (main_arg9 : FVec F S64 .f32) (main_arg10 : FVec F S64x2 .f32) (main_arg11 : FVec F S2 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg1 main_v48 main_v49 main_v50

def fn_part1 {F : FTy → Type} [FloatOps F] (main_arg1 : IVec S2x1600000 32) (main_arg5 : FVec F S128 .f32) (main_arg6 : FVec F S128x64 .f32) (main_arg7 : FVec F S64 .f32) (main_arg8 : FVec F S64x64 .f32) (main_arg9 : FVec F S64 .f32) (main_arg10 : FVec F S64x2 .f32) (main_arg11 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S64x2 .f32) (main_arg11 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1x2 : Shape := ⟨2, ![1, 2]⟩
abbrev S1600000x2 : Shape := ⟨2, ![1600000, 2]⟩
abbrev S8000x64 : Shape := ⟨2, ![8000, 64]⟩
abbrev S8000x2 : Shape := ⟨2, ![8000, 2]⟩

abbrev nBuf : Space → Nat
  | .hbm => 145
  | .vmem => 23
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x64, .f32⟩
  | 9 => ⟨S64, .f32⟩
  | 10 => ⟨S64x2, .f32⟩
  | 11 => ⟨S2, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x64, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x64, .f32⟩
  | 110 => ⟨S1700000x1, .f32⟩
  | 111 => ⟨S1700000x64, .f32⟩
  | 112 => ⟨S1700000x64, .f32⟩
  | 113 => ⟨S_, .f32⟩
  | 114 => ⟨S100000x64, .f32⟩
  | 115 => ⟨S1700000x1, .i32⟩
  | 116 => ⟨S100000x64, .f32⟩
  | 117 => ⟨S1x64, .f32⟩
  | 118 => ⟨S100000x64, .f32⟩
  | 119 => ⟨S100000x64, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x64, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1600000x64, .f32⟩
  | 11 => ⟨S_, .f32⟩
  | 12 => ⟨S1600000x64, .f32⟩
  | 13 => ⟨S1600000x64, .f32⟩
  | 14 => ⟨S1x64, .f32⟩
  | 15 => ⟨S1x2, .f32⟩
  | 16 => ⟨S1600000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S8000x64, .f32⟩
  | .local _ .vmem, ⟨16, _⟩ => ⟨S8000x64, .f32⟩
  | .local _ .vmem, ⟨17, _⟩ => ⟨S64x64, .f32⟩
  | .local _ .vmem, ⟨18, _⟩ => ⟨S1x64, .f32⟩
  | .local _ .vmem, ⟨19, _⟩ => ⟨S64x2, .f32⟩
  | .local _ .vmem, ⟨20, _⟩ => ⟨S1x2, .f32⟩
  | .local _ .vmem, ⟨21, _⟩ => ⟨S8000x2, .f32⟩
  | .local _ .vmem, ⟨22, _⟩ => ⟨S8000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_v69 : Ref sig .tc := ⟨.hbm, 103, rfl⟩
abbrev main_c_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_16 : Ref sig .tc := ⟨.hbm, 120, rfl⟩
abbrev main_v84 : Ref sig .tc := ⟨.hbm, 121, rfl⟩
abbrev main_v85 : Ref sig .tc := ⟨.hbm, 122, rfl⟩
abbrev main_c_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_18 : Ref sig .tc := ⟨.hbm, 129, rfl⟩
abbrev main_v91 : Ref sig .tc := ⟨.hbm, 130, rfl⟩
abbrev main_v92 : Ref sig .tc := ⟨.hbm, 131, rfl⟩
abbrev main_c_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_20 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem5_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  shapeCasts_S64_S1x64 : S64.ShapeCasts S1x64
  shapeCasts_S2_S1x2 : S2.ShapeCasts S1x2
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  dot_S8000x64_S64x2_S8000x2_1_0_0_1_n_n_wf : DotDims.WF S8000x64 S64x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .f32 = 32 ∨ (Rect.block (s := S1600000x64) S8000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x2.size a ≤ S64x2.size a
  hwx3_3 : ∀ i : grid3.Coords, EltTy.bits .f32 = 32 ∨ (Rect.block (s := S64x2) S64x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x2.size a ≤ S1600000x2.size a
  hwx3_5 : ∀ i : grid3.Coords, EltTy.bits .f32 = 32 ∨ (Rect.block (s := S1600000x2) S8000x2.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x2_S8000x2_1_0_0_1_n_n : DotDims S8000x64 S64x2 S8000x2 where
  lhsContracting := [1]
  rhsContracting := [0]
  lhsNonContracting := [0]
  rhsNonContracting := [1]
  lhsBatch := []
  rhsBatch := []
  wf := dot_S8000x64_S64x2_S8000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v100) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v101) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S8000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S1600000x1 : Shape := ⟨2, ![1600000, 1]⟩
abbrev S1600000x64 : Shape := ⟨2, ![1600000, 64]⟩
abbrev S1600000x2 : Shape := ⟨2, ![1600000, 2]⟩
abbrev S1x2 : Shape := ⟨2, ![1, 2]⟩

abbrev nBuf : Space → Nat
  | .hbm => 244
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x64, .f32⟩
  | 9 => ⟨S64, .f32⟩
  | 10 => ⟨S64x2, .f32⟩
  | 11 => ⟨S2, .f32⟩
  | 12 => ⟨S1x1600000, .i32⟩
  | 13 => ⟨S1600000, .i32⟩
  | 14 => ⟨S1x1600000, .i32⟩
  | 15 => ⟨S1600000, .i32⟩
  | 16 => ⟨S100000, .i32⟩
  | 17 => ⟨S1700000, .i32⟩
  | 18 => ⟨S1700000, .i32⟩
  | 19 => ⟨S100000x128, .f32⟩
  | 20 => ⟨S_, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S_, .f32⟩
  | 31 => ⟨S1700000, .f32⟩
  | 32 => ⟨S100000, .f32⟩
  | 33 => ⟨S_, .f32⟩
  | 34 => ⟨S100000, .f32⟩
  | 35 => ⟨S100000, .i1⟩
  | 36 => ⟨S_, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x128, .f32⟩
  | 71 => ⟨S1700000x1, .f32⟩
  | 72 => ⟨S1700000x128, .f32⟩
  | 73 => ⟨S1700000x128, .f32⟩
  | 74 => ⟨S_, .f32⟩
  | 75 => ⟨S100000x128, .f32⟩
  | 76 => ⟨S1700000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S_, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S_, .f32⟩
  | 96 => ⟨S1700000, .f32⟩
  | 97 => ⟨S100000, .f32⟩
  | 98 => ⟨S_, .f32⟩
  | 99 => ⟨S100000, .f32⟩
  | 100 => ⟨S100000, .i1⟩
  | 101 => ⟨S_, .f32⟩
  | 102 => ⟨S100000, .f32⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000, .f32⟩
  | 126 => ⟨S1700000, .f32⟩
  | 127 => ⟨S_, .i32⟩
  | _ => ⟨S100000x128, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x128, .f32⟩
  | 8 => ⟨S1700000x1, .f32⟩
  | 9 => ⟨S1700000x128, .f32⟩
  | 10 => ⟨S1700000x128, .f32⟩
  | 11 => ⟨S_, .f32⟩
  | 12 => ⟨S100000x128, .f32⟩
  | 13 => ⟨S1700000x1, .i32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x64, .f32⟩
  | 22 => ⟨S_, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S_, .f32⟩
  | 33 => ⟨S1700000, .f32⟩
  | 34 => ⟨S100000, .f32⟩
  | 35 => ⟨S_, .f32⟩
  | 36 => ⟨S100000, .f32⟩
  | 37 => ⟨S100000, .i1⟩
  | 38 => ⟨S_, .f32⟩
  | 39 => ⟨S100000, .f32⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x64, .f32⟩
  | 73 => ⟨S1700000x1, .f32⟩
  | 74 => ⟨S1700000x64, .f32⟩
  | 75 => ⟨S1700000x64, .f32⟩
  | 76 => ⟨S_, .f32⟩
  | 77 => ⟨S100000x64, .f32⟩
  | 78 => ⟨S1700000x1, .i32⟩
  | 79 => ⟨S100000x64, .f32⟩
  | 80 => ⟨S1x64, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x64, .f32⟩
  | 102 => ⟨S_, .f32⟩
  | 103 => ⟨S1600000x64, .f32⟩
  | 104 => ⟨S1600000x64, .f32⟩
  | 105 => ⟨S1600000x64, .f32⟩
  | 106 => ⟨S1x64, .f32⟩
  | 107 => ⟨S1600000x64, .f32⟩
  | 108 => ⟨S1600000x64, .f32⟩
  | 109 => ⟨S_, .f32⟩
  | 110 => ⟨S1600000x64, .f32⟩
  | 111 => ⟨S1600000x64, .f32⟩
  | 112 => ⟨S1600000x2, .f32⟩
  | 113 => ⟨S1x2, .f32⟩
  | 114 => ⟨S1600000x2, .f32⟩
  | 115 => ⟨S1600000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_7 : Ref sig .tc := ⟨.hbm, 52, rfl⟩
abbrev main_v29 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_cst : Ref sig .tc := ⟨.hbm, 81, rfl⟩
abbrev main_call1_v0 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_cst_16 : Ref sig .tc := ⟨.hbm, 98, rfl⟩
abbrev main_v64 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_cst_18 : Ref sig .tc := ⟨.hbm, 104, rfl⟩
abbrev main_call2_v0 : Ref sig .tc := ⟨.hbm, 105, rfl⟩
abbrev main_call2_v1 : Ref sig .tc := ⟨.hbm, 106, rfl⟩
abbrev main_v68 : Ref sig .tc := ⟨.hbm, 107, rfl⟩
abbrev main_c_19 : Ref sig .tc := ⟨.hbm, 108, rfl⟩
abbrev main_v69 : Ref sig .tc := ⟨.hbm, 109, rfl⟩
abbrev main_v70 : Ref sig .tc := ⟨.hbm, 110, rfl⟩
abbrev main_c_20 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_21 : Ref sig .tc := ⟨.hbm, 117, rfl⟩
abbrev main_v76 : Ref sig .tc := ⟨.hbm, 118, rfl⟩
abbrev main_v77 : Ref sig .tc := ⟨.hbm, 119, rfl⟩
abbrev main_c_22 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_23 : Ref sig .tc := ⟨.hbm, 127, rfl⟩
abbrev main_v84 : Ref sig .tc := ⟨.hbm, 128, rfl⟩
abbrev main_v85 : Ref sig .tc := ⟨.hbm, 129, rfl⟩
abbrev main_c_24 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_25 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_call3_cst : Ref sig .tc := ⟨.hbm, 146, rfl⟩
abbrev main_call3_v0 : Ref sig .tc := ⟨.hbm, 147, rfl⟩
abbrev main_v100 : Ref sig .tc := ⟨.hbm, 148, rfl⟩
abbrev main_v101 : Ref sig .tc := ⟨.hbm, 149, rfl⟩
abbrev main_cst_26 : Ref sig .tc := ⟨.hbm, 150, rfl⟩
abbrev main_v102 : Ref sig .tc := ⟨.hbm, 151, rfl⟩
abbrev main_c_27 : Ref sig .tc := ⟨.hbm, 152, rfl⟩
abbrev main_v103 : Ref sig .tc := ⟨.hbm, 153, rfl⟩
abbrev main_v104 : Ref sig .tc := ⟨.hbm, 154, rfl⟩
abbrev main_c_28 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_29 : Ref sig .tc := ⟨.hbm, 160, rfl⟩
abbrev main_v109 : Ref sig .tc := ⟨.hbm, 161, rfl⟩
abbrev main_v110 : Ref sig .tc := ⟨.hbm, 162, rfl⟩
abbrev main_cst_30 : Ref sig .tc := ⟨.hbm, 163, rfl⟩
abbrev main_v111 : Ref sig .tc := ⟨.hbm, 164, rfl⟩
abbrev main_v112 : Ref sig .tc := ⟨.hbm, 165, rfl⟩
abbrev main_cst_31 : Ref sig .tc := ⟨.hbm, 166, rfl⟩
abbrev main_v113 : Ref sig .tc := ⟨.hbm, 167, rfl⟩
abbrev main_v114 : Ref sig .tc := ⟨.hbm, 168, rfl⟩
abbrev main_cst_32 : Ref sig .tc := ⟨.hbm, 169, rfl⟩
abbrev main_call4_v0 : Ref sig .tc := ⟨.hbm, 170, rfl⟩
abbrev main_call4_v1 : Ref sig .tc := ⟨.hbm, 171, rfl⟩
abbrev main_v115 : Ref sig .tc := ⟨.hbm, 172, rfl⟩
abbrev main_c_33 : Ref sig .tc := ⟨.hbm, 173, rfl⟩
abbrev main_v116 : Ref sig .tc := ⟨.hbm, 174, rfl⟩
abbrev main_v117 : Ref sig .tc := ⟨.hbm, 175, rfl⟩
abbrev main_c_34 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_c_35 : Ref sig .tc := ⟨.hbm, 182, rfl⟩
abbrev main_v123 : Ref sig .tc := ⟨.hbm, 183, rfl⟩
abbrev main_v124 : Ref sig .tc := ⟨.hbm, 184, rfl⟩
abbrev main_c_36 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_c_37 : Ref sig .tc := ⟨.hbm, 192, rfl⟩
abbrev main_v131 : Ref sig .tc := ⟨.hbm, 193, rfl⟩
abbrev main_v132 : Ref sig .tc := ⟨.hbm, 194, rfl⟩
abbrev main_c_38 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_cst_39 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_c_40 : Ref sig .tc := ⟨.hbm, 211, rfl⟩
abbrev main_v147 : Ref sig .tc := ⟨.hbm, 212, rfl⟩
abbrev main_v148 : Ref sig .tc := ⟨.hbm, 213, rfl⟩
abbrev main_c_41 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_c_42 : Ref sig .tc := ⟨.hbm, 220, rfl⟩
abbrev main_v154 : Ref sig .tc := ⟨.hbm, 221, rfl⟩
abbrev main_v155 : Ref sig .tc := ⟨.hbm, 222, rfl⟩
abbrev main_c_43 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_cst_44 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_call5_cst : Ref sig .tc := ⟨.hbm, 237, rfl⟩
abbrev main_call5_v0 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S1x64_S1600000x64_0_1 : S1x64.BroadcastsInDim S1600000x64 (![0, 1] : Fin 2 → Fin S1600000x64.rank)
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  dot_S1600000x64_S64x2_S1600000x2_1_0_0_1_n_n_wf : DotDims.WF S1600000x64 S64x2 S1600000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x2_S1600000x2_1_0_0_1_n_n : DotDims S1600000x64 S64x2 S1600000x2 where
  lhsContracting := [1]
  rhsContracting := [0]
  lhsNonContracting := [0]
  rhsNonContracting := [1]
  lhsBatch := []
  rhsBatch := []
  wf := dot_S1600000x64_S64x2_S1600000x2_1_0_0_1_n_n_wf

class Facts : Prop extends Facts₀ where

variable [Facts]
-- ==== Proof.KLive.lean ====
/-
  What stays put while the kernel's host operations run. A stretch of host operations changes only the buffers its
  operations write; every other buffer holds afterwards what it held before. The buffers the later stretches and
  kernel calls still read are the twelve arguments, the four index lists (the edges' sources and destinations, alone
  and followed by the self loops) and the edge norm; no stretch after the one that makes them writes any of them.
  `Args`, `Idx` and `Live` say that a buffer assignment W holds given arrays at those buffers, and the lemmas carry
  them across each stretch.
-/
import proofs.«159991_j83399674954443_1_alg».proof.Proof.Gen.KernelIdeal.Launch
import proofs.«159991_j83399674954443_1_alg».proof.Proof.RefReadP
import Idealize.ShloMosaic.Lib.StableHlo.Run
import Idealize.ShloMosaic.PureOps.Ideal

set_option maxRecDepth 16384

noncomputable section

namespace Cert.Proof.KHost

open Cert.KernelIdeal Cert.KernelIdeal.Gen
open Cert.ReferenceIdeal.ReadP
open Idealize.ShloMosaic Idealize.ShloMosaic.TcCoe Idealize.SL.Sem Idealize.ShloMosaic.StableHlo

variable (W : Valuation τ sig (Elt Ideal))

variable (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x64 .f32) (x7 : FVec Ideal S64 .f32) (x8 : FVec Ideal S64x64 .f32) (x9 : FVec Ideal S64 .f32) (x10 : FVec Ideal S64x2 .f32) (x11 : FVec Ideal S2 .f32)

/-- The twelve arguments hold x0 … x11. -/
structure Args : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11

/-- The four index lists hold what the edge array x1 gives: sources, destinations, and each followed by the self loops. -/
structure Idx : Prop where
  v1 : W (Proc.devRef .tc main_v1) = val_main_v1 (F := Ideal) x1
  v3 : W (Proc.devRef .tc main_v3) = val_main_v3 (F := Ideal) x1
  v5 : W (Proc.devRef .tc main_v5) = val_main_v5 (F := Ideal) x1
  v6 : W (Proc.devRef .tc main_v6) = val_main_v6 (F := Ideal) x1

/-- Arguments, index lists and the edge norm. -/
structure Live : Prop where
  args : Args W x0 x1 x2 x3 x4 x5 x6 x7 x8 x9 x10 x11
  idx : Idx W x1
  v30 : W (Proc.devRef .tc main_v30) = val_main_v36 (F := Ideal) x1

/-! ## A stretch leaves alone what none of its operations writes -/

/-- The arguments. -/
abbrev argsL : List (Ref sig .tc) :=
  [main_arg0, main_arg1, main_arg2, main_arg3, main_arg4, main_arg5, main_arg6, main_arg7, main_arg8, main_arg9, main_arg10, main_arg11]
/-- The arguments and the four index lists. -/
abbrev idxL : List (Ref sig .tc) := argsL ++ [main_v1, main_v3, main_v5, main_v6]
/-- The arguments, the index lists and the edge norm. -/
abbrev liveL : List (Ref sig .tc) := idxL ++ [main_v30]

/-- A buffer of a list none of whose members a stretch writes holds after the stretch what it held before. -/
theorem keep {ops : List (HloOp τ sig (Elt Ideal))} {L : List (Ref sig .tc)}
    (hL : ∀ b ∈ L, ∀ op ∈ ops, Proc.devRef (τ := τ) .tc b ∉ op.writes) {b : Ref sig .tc}
    {v : (Proc.devRef (τ := τ) .tc b).ty.Contents (Elt Ideal)} (h : W (Proc.devRef .tc b) = v) (hb : b ∈ L := by decide) :
    StableHlo.after ops W (Proc.devRef .tc b) = v :=
  (StableHlo.after_of_forall_not_mem ops W (hL b hb)).trans h

/-- Each operation of a stretch writes its one result buffer, and the result buffers of the stretch are none of the
    listed buffers: a conjunction, over the operations, of inequalities of buffer names, each decided over the list. -/
local macro "no_write" : tactic => `(tactic| (
  intro b hb
  refine List.forall_iff_forall_mem.mp ?_
  simp only [List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by revert b; decide)))

/-- The first stretch writes no argument (it makes the index lists). -/
theorem nw0 : ∀ b ∈ argsL, ∀ op ∈ (hostOps0 (F := Ideal)), Proc.devRef (τ := τ) .tc b ∉ op.writes := by
  no_write
/-- The second and third write no argument and no index list (the third makes the edge norm). -/
theorem nw01 : ∀ b ∈ idxL, ∀ op ∈ (hostOps0_1 (F := Ideal)), Proc.devRef (τ := τ) .tc b ∉ op.writes := by
  no_write
theorem nw02 : ∀ b ∈ idxL, ∀ op ∈ (hostOps0_2 (F := Ideal)), Proc.devRef (τ := τ) .tc b ∉ op.writes := by
  no_write
/-- The later ones write no argument, no index list and not the edge norm. -/
theorem nw1 : ∀ b ∈ liveL, ∀ op ∈ (hostOps1 (F := Ideal)), Proc.devRef (τ := τ) .tc b ∉ op.writes := by
  no_write
theorem nw11 : ∀ b ∈ liveL, ∀ op ∈ (hostOps1_1 (F := Ideal)), Proc.devRef (τ := τ) .tc b ∉ op.writes := by
  no_write
theorem nw2 : ∀ b ∈ liveL, ∀ op ∈ (hostOps2 (F := Ideal)), Proc.devRef (τ := τ) .tc b ∉ op.writes := by
  no_write
theorem nw21 : ∀ b ∈ liveL, ∀ op ∈ (hostOps2_1 (F := Ideal)), Proc.devRef (τ := τ) .tc b ∉ op.writes := by
  no_write
theorem nw3 : ∀ b ∈ liveL, ∀ op ∈ (hostOps3 (F := Ideal)), Proc.devRef (τ := τ) .tc b ∉ op.writes := by
  no_write

/-! ## The arguments, the index lists and the edge norm across each stretch -/

theorem Args.after0 (h : Args W x0 x1 x2 x3 x4 x5 x6 x7 x8 x9 x10 x11) : Args (StableHlo.after (hostOps0 (F := Ideal)) W) x0 x1 x2 x3 x4 x5 x6 x7 x8 x9 x10 x11 := by
  exact ⟨keep W nw0 h.a0, keep W nw0 h.a1, keep W nw0 h.a2, keep W nw0 h.a3, keep W nw0 h.a4, keep W nw0 h.a5, keep W nw0 h.a6, keep W nw0 h.a7, keep W nw0 h.a8, keep W nw0 h.a9, keep W nw0 h.a10, keep W nw0 h.a11⟩

theorem Args.after01 (h : Args W x0 x1 x2 x3 x4 x5 x6 x7 x8 x9 x10 x11) : Args (StableHlo.after (hostOps0_1 (F := Ideal)) W) x0 x1 x2 x3 x4 x5 x6 x7 x8 x9 x10 x11 := by
  exact ⟨keep W nw01 h.a0, keep W nw01 h.a1, keep W nw01 h.a2, keep W nw01 h.a3, keep W nw01 h.a4, keep W nw01 h.a5, keep W nw01 h.a6, keep W nw01 h.a7, keep W nw01 h.a8, keep W nw01 h.a9, keep W nw01 h.a10, keep W nw01 h.a11⟩

theorem Args.after02 (h : Args W x0 x1 x2 x3 x4 x5 x6 x7 x8 x9 x10 x11) : Args (StableHlo.after (hostOps0_2 (F := Ideal)) W) x0 x1 x2 x3 x4 x5 x6 x7 x8 x9 x10 x11 := by
  exact ⟨keep W nw02 h.a0, keep W nw02 h.a1, keep W nw02 h.a2, keep W nw02 h.a3, keep W nw02 h.a4, keep W nw02 h.a5, keep W nw02 h.a6, keep W nw02 h.a7, keep W nw02 h.a8, keep W nw02 h.a9, keep W nw02 h.a10, keep W nw02 h.a11⟩

theorem Args.after1 (h : Args W x0 x1 x2 x3 x4 x5 x6 x7 x8 x9 x10 x11) : Args (StableHlo.after (hostOps1 (F := Ideal)) W) x0 x1 x2 x3 x4 x5 x6 x7 x8 x9 x10 x11 := by
  exact ⟨keep W nw1 h.a0, keep W nw1 h.a1, keep W nw1 h.a2, keep W nw1 h.a3, keep W nw1 h.a4, keep W nw1 h.a5, keep W nw1 h.a6, keep W nw1 h.a7, keep W nw1 h.a8, keep W nw1 h.a9, keep W nw1 h.a10, keep W nw1 h.a11⟩

theorem Args.after11 (h : Args W x0 x1 x2 x3 x4 x5 x6 x7 x8 x9 x10 x11) : Args (StableHlo.after (hostOps1_1 (F := Ideal)) W) x0 x1 x2 x3 x4 x5 x6 x7 x8 x9 x10 x11 := by
  exact ⟨keep W nw11 h.a0, keep W nw11 h.a1, keep W nw11 h.a2, keep W nw11 h.a3, keep W nw11 h.a4, keep W nw11 h.a5, keep W nw11 h.a6, keep W nw11 h.a7, keep W nw11 h.a8, keep W nw11 h.a9, keep W nw11 h.a10, keep W nw11 h.a11⟩

theorem Args.after2 (h : Args W x0 x1 x2 x3 x4 x5 x6 x7 x8 x9 x10 x11) : Args (StableHlo.after (hostOps2 (F := Ideal)) W) x0 x1 x2 x3 x4 x5 x6 x7 x8 x9 x10 x11 := by
  exact ⟨keep W nw2 h.a0, keep W nw2 h.a1, keep W nw2 h.a2, keep W nw2 h.a3, keep W nw2 h.a4, keep W nw2 h.a5, keep W nw2 h.a6, keep W nw2 h.a7, keep W nw2 h.a8, keep W nw2 h.a9, keep W nw2 h.a10, keep W nw2 h.a11⟩

theorem Args.after21 (h : Args W x0 x1 x2 x3 x4 x5 x6 x7 x8 x9 x10 x11) : Args (StableHlo.after (hostOps2_1 (F := Ideal)) W) x0 x1 x2 x3 x4 x5 x6 x7 x8 x9 x10 x11 := by
  exact ⟨keep W nw21 h.a0, keep W nw21 h.a1, keep W nw21 h.a2, keep W nw21 h.a3, keep W nw21 h.a4, keep W nw21 h.a5, keep W nw21 h.a6, keep W nw21 h.a7, keep W nw21 h.a8, keep W nw21 h.a9, keep W nw21 h.a10, keep W nw21 h.a11⟩

theorem Args.after3 (h : Args W x0 x1 x2 x3 x4 x5 x6 x7 x8 x9 x10 x11) : Args (StableHlo.after (hostOps3 (F := Ideal)) W) x0 x1 x2 x3 x4 x5 x6 x7 x8 x9 x10 x11 := by
  exact ⟨keep W nw3 h.a0, keep W nw3 h.a1, keep W nw3 h.a2, keep W nw3 h.a3, keep W nw3 h.a4, keep W nw3 h.a5, keep W nw3 h.a6, keep W nw3 h.a7, keep W nw3 h.a8, keep W nw3 h.a9, keep W nw3 h.a10, keep W nw3 h.a11⟩

theorem Idx.after01 (h : Idx W x1) : Idx (StableHlo.after (hostOps0_1 (F := Ideal)) W) x1 := by
  exact ⟨keep W nw01 h.v1, keep W nw01 h.v3, keep W nw01 h.v5, keep W nw01 h.v6⟩

theorem Idx.after02 (h : Idx W x1) : Idx (StableHlo.after (hostOps0_2 (F := Ideal)) W) x1 := by
  exact ⟨keep W nw02 h.v1, keep W nw02 h.v3, keep W nw02 h.v5, keep W nw02 h.v6⟩

theorem Idx.after1 (h : Idx W x1) : Idx (StableHlo.after (hostOps1 (F := Ideal)) W) x1 := by
  exact ⟨keep W nw1 h.v1, keep W nw1 h.v3, keep W nw1 h.v5, keep W nw1 h.v6⟩

theorem Idx.after11 (h : Idx W x1) : Idx (StableHlo.after (hostOps1_1 (F := Ideal)) W) x1 := by
  exact ⟨keep W nw11 h.v1, keep W nw11 h.v3, keep W nw11 h.v5, keep W nw11 h.v6⟩

theorem Idx.after2 (h : Idx W x1) : Idx (StableHlo.after (hostOps2 (F := Ideal)) W) x1 := by
  exact ⟨keep W nw2 h.v1, keep W nw2 h.v3, keep W nw2 h.v5, keep W nw2 h.v6⟩

theorem Idx.after21 (h : Idx W x1) : Idx (StableHlo.after (hostOps2_1 (F := Ideal)) W) x1 := by
  exact ⟨keep W nw21 h.v1, keep W nw21 h.v3, keep W nw21 h.v5, keep W nw21 h.v6⟩

theorem Idx.after3 (h : Idx W x1) : Idx (StableHlo.after (hostOps3 (F := Ideal)) W) x1 := by
  exact ⟨keep W nw3 h.v1, keep W nw3 h.v3, keep W nw3 h.v5, keep W nw3 h.v6⟩

theorem Live.after1 (h : Live W x0 x1 x2 x3 x4 x5 x6 x7 x8 x9 x10 x11) : Live (StableHlo.after (hostOps1 (F := Ideal)) W) x0 x1 x2 x3 x4 x5 x6 x7 x8 x9 x10 x11 := by
  exact ⟨Args.after1 W x0 x1 x2 x3 x4 x5 x6 x7 x8 x9 x10 x11 h.args, Idx.after1 W x1 h.idx, keep W nw1 h.v30⟩

theorem Live.after11 (h : Live W x0 x1 x2 x3 x4 x5 x6 x7 x8 x9 x10 x11) : Live (StableHlo.after (hostOps1_1 (F := Ideal)) W) x0 x1 x2 x3 x4 x5 x6 x7 x8 x9 x10 x11 := by
  exact ⟨Args.after11 W x0 x1 x2 x3 x4 x5 x6 x7 x8 x9 x10 x11 h.args, Idx.after11 W x1 h.idx, keep W nw11 h.v30⟩

theorem Live.after2 (h : Live W x0 x1 x2 x3 x4 x5 x6 x7 x8 x9 x10 x11) : Live (StableHlo.after (hostOps2 (F := Ideal)) W) x0 x1 x2 x3 x4 x5 x6 x7 x8 x9 x10 x11 := by
  exact ⟨Args.after2 W x0 x1 x2 x3 x4 x5 x6 x7 x8 x9 x10 x11 h.args, Idx.after2 W x1 h.idx, keep W nw2 h.v30⟩

theorem Live.after21 (h : Live W x0 x1 x2 x3 x4 x5 x6 x7 x8 x9 x10 x11) : Live (StableHlo.after (hostOps2_1 (F := Ideal)) W) x0 x1 x2 x3 x4 x5 x6 x7 x8 x9 x10 x11 := by
  exact ⟨Args.after21 W x0 x1 x2 x3 x4 x5 x6 x7 x8 x9 x10 x11 h.args, Idx.after21 W x1 h.idx, keep W nw21 h.v30⟩

theorem Live.after3 (h : Live W x0 x1 x2 x3 x4 x5 x6 x7 x8 x9 x10 x11) : Live (StableHlo.after (hostOps3 (F := Ideal)) W) x0 x1 x2 x3 x4 x5 x6 x7 x8 x9 x10 x11 := by
  exact ⟨Args.after3 W x0 x1 x2 x3 x4 x5 x6 x7 x8 x9 x10 x11 h.args, Idx.after3 W x1 h.idx, keep W nw3 h.v30⟩

end Cert.Proof.KHost

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.Region0.lean ====
/-
  The first node product. The kernel works the node features [100000, 128] in ten blocks of 10000 consecutive rows;
  each grid point multiplies its block by the whole weight matrix [128, 128] on the matrix unit, from a zero
  accumulator, and writes the product back as the same rows of the result. Row r of the result is therefore row
  r - 10000 (r / 10000) of block r / 10000, and entry (r, q) is the sum over k of x (r, k) w (k, q): the host's
  product of the whole arrays at (r, q). The ten blocks tile the result, so the result array ends at that product.
-/
import proofs.«159991_j83399674954443_1_alg».proof.Proof.Gen.KernelIdeal.Frame
import proofs.«159991_j83399674954443_1_alg».proof.Proof.LibBlocks
import Idealize.ShloMosaic.Lib.Pipeline.Value

set_option maxRecDepth 16384

noncomputable section

namespace Cert.Proof.Region0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The kernel's dimension numbers are the plain rows-by-columns ones. -/
theorem dims_plain : dot_S10000x128_S128x128_S10000x128_1_0_0_1_n_n = DotDims.plain 10000 128 128 := rfl

/-- Entry (p, q) of what the body computes from a block x [10000, 128] and the matrix w [128, 128]: the narrowing is
    the identity at the extended reals, and the matrix unit's product into a zero accumulator is the sum over k of
    x (p, k) w (k, q). -/
theorem block_product_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  refine (Cert.LibBlocks.matmul_plain_apply dot_S10000x128_S128x128_S10000x128_1_0_0_1_n_n dims_plain none _ _ p q).trans ?_
  refine Finset.sum_congr rfl fun k _ => ?_
  rw [truncf_apply, truncf_apply]

/-- Entry (r, q) of the host's product of the whole arrays: the sum over k of X (r, k) W (k, q). -/
theorem host_product_apply (dr : DotDims S100000x128 S128x128 S100000x128) (hdr : dr = DotDims.plain 100000 128 128)
    (X : FVec Ideal S100000x128 .f32) (W : FVec Ideal S128x128 .f32) (r : Fin 100000) (q : Fin 128) :
    Host.dotGeneral (F := Ideal) (φ₁ := .f32) (φ₂ := .f32) dr none X W (ix2 r q) = ∑ k : Fin 128, X (ix2 r k) * W (ix2 k q) :=
  Cert.LibBlocks.dotGeneral_plain_apply dr hdr none .single X W r q

/-- The block index maps over the grid of ten points: at point t the left operand's block and the result's block are
    block t of the rows and the only block of the columns, and the matrix is its only block. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ t.val < 10 :=
  (by decide +kernel : ∀ t : Fin grid0.N, _)

/-- Every one of the ten row blocks is some point's. -/
theorem block_has_point : ∀ (b : Fin 10), ∃ t : Fin cfg0.N, t.val = b.val :=
  (by decide +kernel : ∀ (b : Fin 10), ∃ t : Fin grid0.N, t.val = b.val)

/-- What point t writes back is block t of the host's product of the whole arrays: local row p of block t is row
    10000 t + p of the left array, the matrix block is the whole matrix, and both sides at (p, q) are the same sum
    over k. -/
theorem written_back_eq (dr : DotDims S100000x128 S128x128 S100000x128) (hdr : dr = DotDims.plain 100000 128 128) (c : Dev nD) (t : Fin cfg0.N) :
    (dat0 (F := Ideal) V c).flushed 2 t = ((cfg0.win 2).blk t).view.read (Elt Ideal)
      (Host.dotGeneral (F := Ideal) (φ₁ := .f32) (φ₂ := .f32) dr none (V c main_arg0 : FVec Ideal S100000x128 .f32) (V c main_arg2 : FVec Ideal S128x128 .f32)) := by
  show (cfg0.win 2).cut (grid0.coords t) ((dat0 V c).after 2 t) = _
  rw [after0_2]
  unfold out0_2
  rw [View.canon_unit_zero Cert.LibBlocks.off2_zero]
  simp only [View.ld_unit_zero (S := S10000x128) Cert.LibBlocks.off2_zero, View.ld_unit_zero (S := S128x128) Cert.LibBlocks.off2_zero]
  obtain ⟨e0, e1, e2, e3, e4, e5, e6⟩ := block_indices t
  funext j
  obtain ⟨p, q, rfl⟩ : ∃ (p : Fin 10000) (q : Fin 128), j = ix2 p q := ⟨j 0, j 1, eq_ix2 j⟩
  have hrow : t.val * 10000 + p.val < 100000 := by have := p.isLt; omega
  -- the result's element (p, q) of block t sits at (10000 t + p, q) of the array
  have hout : ((cfg0.win 2).blk t).view.emb (ix2 p q) = ix2 (⟨t.val * 10000 + p.val, hrow⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  -- the left block's element (p, k) is the left array's element (10000 t + p, k)
  have hx : ∀ k : Fin 128, iblk0 V c 0 t (ix2 p k) = V c main_arg0 (ix2 (⟨t.val * 10000 + p.val, hrow⟩ : Fin 100000) k) := by
    intro k
    show V c main_arg0 (((cfg0.win 0).blk t).view.emb (ix2 p k)) = V c main_arg0 _
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  -- the matrix block's element (k, q) is the matrix's element (k, q)
  have hw : ∀ k : Fin 128, iblk0 V c 1 t (ix2 k q) = V c main_arg2 (ix2 k q) := by
    intro k
    show V c main_arg2 (((cfg0.win 1).blk t).view.emb (ix2 k q)) = V c main_arg2 _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  show k0_pay1 (F := Ideal) (iblk0 V c 0 t) (iblk0 V c 1 t) (ix2 p q)
    = Host.dotGeneral (F := Ideal) (φ₁ := .f32) (φ₂ := .f32) dr none (V c main_arg0 : FVec Ideal S100000x128 .f32) (V c main_arg2 : FVec Ideal S128x128 .f32) (((cfg0.win 2).blk t).view.emb (ix2 p q))
  rw [hout]
  refine (block_product_apply _ _ p q).trans ?_
  refine Eq.trans ?_ (host_product_apply dr hdr _ _ _ q).symm
  refine Finset.sum_congr rfl fun k _ => ?_
  rw [hx k, hw k]

/-- An element of the result array is in point t's block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- The ten blocks tile the result: row r lies in the block of point r / 10000, and that point writes back. -/
theorem blocks_cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨hb, hlo, hhi⟩ := Cert.LibBlocks.row_in_block (nb := 10) (bs := 10000) (r := (i 0).val) (by decide) hi0
  obtain ⟨t, ht⟩ := block_has_point ⟨(i 0).val / 10000, hb⟩
  have ht' : t.val = (i 0).val / 10000 := ht
  obtain ⟨e0, e1, e2, e3, e4, e5, e6⟩ := block_indices t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array of the first node product, after the region: the host's product of the features and the weights
    as the region found them. -/
theorem arr (dr : DotDims S100000x128 S128x128 S100000x128) (hdr : dr = DotDims.plain 100000 128 128) (c : Dev nD) :
    ((dat0 (F := Ideal) V c).arrAt 2 cfg0.N : FVec Ideal S100000x128 .f32)
      = Host.dotGeneral (F := Ideal) (φ₁ := .f32) (φ₂ := .f32) dr none (V c main_arg0 : FVec Ideal S100000x128 .f32) (V c main_arg2 : FVec Ideal S128x128 .f32) :=
  (dat0 (F := Ideal) V c).arrAt_eq_of_cover 2 _ (fun t _ => written_back_eq V dr hdr c t) blocks_cover

end Cert.Proof.Region0

end
-- ==== Proof.Region1.lean ====
/-
  The second node product: the rectified first layer [100000, 128], in ten blocks of 10000 consecutive rows, each
  multiplied by the whole weight matrix [128, 128] on the matrix unit from a zero accumulator and written back as
  the same rows. Entry (r, q) of the result is the sum over k of h (r, k) w (k, q), the host's product at (r, q);
  the ten blocks tile the result.
-/
import proofs.«159991_j83399674954443_1_alg».proof.Proof.Gen.KernelIdeal.Frame
import proofs.«159991_j83399674954443_1_alg».proof.Proof.LibBlocks
import Idealize.ShloMosaic.Lib.Pipeline.Value

set_option maxRecDepth 16384

noncomputable section

namespace Cert.Proof.Region1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The kernel's dimension numbers are the plain rows-by-columns ones. -/
theorem dims_plain : dot_S10000x128_S128x128_S10000x128_1_0_0_1_n_n = DotDims.plain 10000 128 128 := rfl

/-- Entry (p, q) of what the body computes from a block x [10000, 128] and the matrix w [128, 128]: the cast to the
    block's own shape and the narrowing are the identity at the extended reals, and the matrix unit's product into a
    zero accumulator is the sum over k of x (p, k) w (k, q). -/
theorem block_product_apply (x0 : Vec Ideal S10000x128 .f32) (x1 : Vec Ideal S128x128 .f32) (p : Fin 10000) (q : Fin 128) :
    k1_pay1 (F := Ideal) x0 x1 (ix2 p q) = ∑ k : Fin 128, x0 (ix2 p k) * x1 (ix2 k q) := by
  unfold k1_pay1
  refine (Cert.LibBlocks.matmul_plain_apply dot_S10000x128_S128x128_S10000x128_1_0_0_1_n_n dims_plain none _ _ p q).trans ?_
  refine Finset.sum_congr rfl fun k _ => ?_
  rw [truncf_apply, truncf_apply, shapeCast_self]

/-- Entry (r, q) of the host's product of the whole arrays: the sum over k of X (r, k) W (k, q). -/
theorem host_product_apply (dr : DotDims S100000x128 S128x128 S100000x128) (hdr : dr = DotDims.plain 100000 128 128)
    (X : FVec Ideal S100000x128 .f32) (W : FVec Ideal S128x128 .f32) (r : Fin 100000) (q : Fin 128) :
    Host.dotGeneral (F := Ideal) (φ₁ := .f32) (φ₂ := .f32) dr none X W (ix2 r q) = ∑ k : Fin 128, X (ix2 r k) * W (ix2 k q) :=
  Cert.LibBlocks.dotGeneral_plain_apply dr hdr none .single X W r q

/-- The block index maps over the grid of ten points: at point t the left operand's block and the result's block are
    block t of the rows and the only block of the columns, and the matrix is its only block. -/
theorem block_indices : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ t.val < 10 :=
  (by decide +kernel : ∀ t : Fin grid1.N, _)

/-- Every one of the ten row blocks is some point's. -/
theorem block_has_point : ∀ (b : Fin 10), ∃ t : Fin cfg1.N, t.val = b.val :=
  (by decide +kernel : ∀ (b : Fin 10), ∃ t : Fin grid1.N, t.val = b.val)

/-- What point t writes back is block t of the host's product of the whole arrays: local row p of block t is row
    10000 t + p of the left array, the matrix block is the whole matrix, and both sides at (p, q) are the same sum
    over k. -/
theorem written_back_eq (dr : DotDims S100000x128 S128x128 S100000x128) (hdr : dr = DotDims.plain 100000 128 128) (c : Dev nD) (t : Fin cfg1.N) :
    (dat1 (F := Ideal) V c).flushed 2 t = ((cfg1.win 2).blk t).view.read (Elt Ideal)
      (Host.dotGeneral (F := Ideal) (φ₁ := .f32) (φ₂ := .f32) dr none (V c main_v48 : FVec Ideal S100000x128 .f32) (V c main_arg4 : FVec Ideal S128x128 .f32)) := by
  show (cfg1.win 2).cut (grid1.coords t) ((dat1 V c).after 2 t) = _
  rw [after1_2]
  unfold out1_2
  rw [View.canon_unit_zero Cert.LibBlocks.off2_zero]
  simp only [View.ld_unit_zero (S := S10000x128) Cert.LibBlocks.off2_zero, View.ld_unit_zero (S := S128x128) Cert.LibBlocks.off2_zero]
  obtain ⟨e0, e1, e2, e3, e4, e5, e6⟩ := block_indices t
  funext j
  obtain ⟨p, q, rfl⟩ : ∃ (p : Fin 10000) (q : Fin 128), j = ix2 p q := ⟨j 0, j 1, eq_ix2 j⟩
  have hrow : t.val * 10000 + p.val < 100000 := by have := p.isLt; omega
  -- the result's element (p, q) of block t sits at (10000 t + p, q) of the array
  have hout : ((cfg1.win 2).blk t).view.emb (ix2 p q) = ix2 (⟨t.val * 10000 + p.val, hrow⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  -- the left block's element (p, k) is the left array's element (10000 t + p, k)
  have hx : ∀ k : Fin 128, iblk1 V c 0 t (ix2 p k) = V c main_v48 (ix2 (⟨t.val * 10000 + p.val, hrow⟩ : Fin 100000) k) := by
    intro k
    show V c main_v48 (((cfg1.win 0).blk t).view.emb (ix2 p k)) = V c main_v48 _
    refine congrArg _ ?_
    funext a; apply Fin.ext
    match a with
    | ⟨0, _⟩ => show win1_0.index t (0 : Fin 2) * 10000 + 1 * p.val = t.val * 10000 + p.val; omega
    | ⟨1, _⟩ => show win1_0.index t (1 : Fin 2) * 128 + 1 * k.val = k.val; omega
  -- the matrix block's element (k, q) is the matrix's element (k, q)
  have hw : ∀ k : Fin 128, iblk1 V c 1 t (ix2 k q) = V c main_arg4 (ix2 k q) := by
    intro k
    show V c main_arg4 (((cfg1.win 1).blk t).view.emb (ix2 k q)) = V c main_arg4 _
    refine congrArg _ ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  show k1_pay1 (F := Ideal) (iblk1 V c 0 t) (iblk1 V c 1 t) (ix2 p q)
    = Host.dotGeneral (F := Ideal) (φ₁ := .f32) (φ₂ := .f32) dr none (V c main_v48 : FVec Ideal S100000x128 .f32) (V c main_arg4 : FVec Ideal S128x128 .f32) (((cfg1.win 2).blk t).view.emb (ix2 p q))
  rw [hout]
  refine (block_product_apply _ _ p q).trans ?_
  refine Eq.trans ?_ (host_product_apply dr hdr _ _ _ q).symm
  refine Finset.sum_congr rfl fun k _ => ?_
  rw [hx k, hw k]

/-- An element of the result array is in point t's block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v49).slice (win1_2.rect t)).set ↔ _
  rw [View.set_slice_whole, Rect.mem_set_unit]
  exact Iff.rfl

/-- The ten blocks tile the result: row r lies in the block of point r / 10000, and that point writes back. -/
theorem blocks_cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨hb, hlo, hhi⟩ := Cert.LibBlocks.row_in_block (nb := 10) (bs := 10000) (r := (i 0).val) (by decide) hi0
  obtain ⟨t, ht⟩ := block_has_point ⟨(i 0).val / 10000, hb⟩
  have ht' : t.val = (i 0).val / 10000 := ht
  obtain ⟨e0, e1, e2, e3, e4, e5, e6⟩ := block_indices t
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the region: the host's product of the two arrays as the region found them. -/
theorem arr (dr : DotDims S100000x128 S128x128 S100000x128) (hdr : dr = DotDims.plain 100000 128 128) (c : Dev nD) :
    ((dat1 (F := Ideal) V c).arrAt 2 cfg1.N : FVec Ideal S100000x128 .f32)
      = Host.dotGeneral (F := Ideal) (φ₁ := .f32) (φ₂ := .f32) dr none (V c main_v48 : FVec Ideal S100000x128 .f32) (V c main_arg4 : FVec Ideal S128x128 .f32) :=
  (dat1 (F := Ideal) V c).arrAt_eq_of_cover 2 _ (fun t _ => written_back_eq V dr hdr c t) blocks_cover

end Cert.Proof.Region1

end
-- ==== Proof.Region2.lean ====
/-
  The third node product: the rectified second layer [100000, 128], in ten blocks of 10000 consecutive rows, each
  multiplied by the whole weight matrix [128, 64] on the matrix unit from a zero accumulator and written back as
  the same rows of the [100000, 64] result. Entry (r, q) is the sum over k of h (r, k) w (k, q), the host's product
  at (r, q); the ten blocks tile the result.
-/
import proofs.«159991_j83399674954443_1_alg».proof.Proof.Gen.KernelIdeal.Frame
import proofs.«159991_j83399674954443_1_alg».proof.Proof.LibBlocks
import Idealize.ShloMosaic.Lib.Pipeline.Value

set_option maxRecDepth 16384

noncomputable section

namespace Cert.Proof.Region2

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The kernel's dimension numbers are the plain rows-by-columns ones. -/
theorem dims_plain : dot_S10000x128_S128x64_S10000x64_1_0_0_1_n_n = DotDims.plain 10000 128 64 := rfl

/-- Entry (p, q) of what the body computes from a block x [10000, 128] and the matrix w [128, 64]: the cast to the
    block's own shape and the narrowing are the identity at the extended reals, and the matrix unit's product into a
    zero accumulator is the sum over k of x (p, k) w (k, q). -/
theorem block_product_apply (x0 : Vec Ideal S10000x128 .f32) (x1 : Vec Ideal S128x64 .f32) (p : Fin 10000) (q : Fin 64) :
    k2_pay1 (F := Ideal) x0 x1 (ix2 p q) = ∑ k : Fin 128, x0 (ix2 p k) * x1 (ix2 k q) := by
  unfold k2_pay1
  refine (Cert.LibBlocks.matmul_plain_apply dot_S10000x128_S128x64_S10000x64_1_0_0_1_n_n dims_plain none _ _ p q).trans ?_
  refine Finset.sum_congr rfl fun k _ => ?_
  rw [truncf_apply, truncf_apply, shapeCast_self]

/-- Entry (r, q) of the host's product of the whole arrays: the sum over k of X (r, k) W (k, q). -/
theorem host_product_apply (dr : DotDims S100000x128 S128x64 S100000x64) (hdr : dr = DotDims.plain 100000 128 64)
    (X : FVec Ideal S100000x128 .f32) (W : FVec Ideal S128x64 .f32) (r : Fin 100000) (q : Fin 64) :
    Host.dotGeneral (F := Ideal) (φ₁ := .f32) (φ₂ := .f32) dr none X W (ix2 r q) = ∑ k : Fin 128, X (ix2 r k) * W (ix2 k q) :=
  Cert.LibBlocks.dotGeneral_plain_apply dr hdr none .single X W r q

/-- The block index maps over the grid of ten points: at point t the left operand's block and the result's block are
    block t of the rows and the only block of the columns, and the matrix is its only block. -/
theorem block_indices : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ t.val < 10 :=
  (by decide +kernel : ∀ t : Fin grid2.N, _)

/-- Every one of the ten row blocks is some point's. -/
theorem block_has_point : ∀ (b : Fin 10), ∃ t : Fin cfg2.N, t.val = b.val :=
  (by decide +kernel : ∀ (b : Fin 10), ∃ t : Fin grid2.N, t.val = b.val)

/-- What point t writes back is block t of the host's product of the whole arrays: local row p of block t is row
    10000 t + p of the left array, the matrix block is the whole matrix, and both sides at (p, q) are the same sum
    over k. -/
theorem written_back_eq (dr : DotDims S100000x128 S128x64 S100000x64) (hdr : dr = DotDims.plain 100000 128 64) (c : Dev nD) (t : Fin cfg2.N) :
    (dat2 (F := Ideal) V c).flushed 2 t = ((cfg2.win 2).blk t).view.read (Elt Ideal)
      (Host.dotGeneral (F := Ideal) (φ₁ := .f32) (φ₂ := .f32) dr none (V c main_v66 : FVec Ideal S100000x128 .f32) (V c main_arg6 : FVec Ideal S128x64 .f32)) := by
  show (cfg2.win 2).cut (grid2.coords t) ((dat2 V c).after 2 t) = _
  rw [after2_2]
  unfold out2_2
  rw [View.canon_unit_zero Cert.LibBlocks.off2_zero]
  simp only [View.ld_unit_zero (S := S10000x128) Cert.LibBlocks.off2_zero, View.ld_unit_zero (S := S128x64) Cert.LibBlocks.off2_zero]
  obtain ⟨e0, e1, e2, e3, e4, e5, e6⟩ := block_indices t
  funext j
  obtain ⟨p, q, rfl⟩ : ∃ (p : Fin 10000) (q : Fin 64), j = ix2 p q := ⟨j 0, j 1, eq_ix2 j⟩
  have hrow : t.val * 10000 + p.val < 100000 := by have := p.isLt; omega
  -- the result's element (p, q) of block t sits at (10000 t + p, q) of the array
  have hout : ((cfg2.win 2).blk t).view.emb (ix2 p q) = ix2 (⟨t.val * 10000 + p.val, hrow⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  -- the left block's element (p, k) is the left array's element (10000 t + p, k)
  have hx : ∀ k : Fin 128, iblk2 V c 0 t (ix2 p k) = V c main_v66 (ix2 (⟨t.val * 10000 + p.val, hrow⟩ : Fin 100000) k) := by
    intro k
    show V c main_v66 (((cfg2.win 0).blk t).view.emb (ix2 p k)) = V c main_v66 _
    refine congrArg _ ?_
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  -- the matrix block's element (k, q) is the matrix's element (k, q)
  have hw : ∀ k : Fin 128, iblk2 V c 1 t (ix2 k q) = V c main_arg6 (ix2 k q) := by
    intro k
    show V c main_arg6 (((cfg2.win 1).blk t).view.emb (ix2 k q)) = V c main_arg6 _
    refine congrArg _ ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  show k2_pay1 (F := Ideal) (iblk2 V c 0 t) (iblk2 V c 1 t) (ix2 p q)
    = Host.dotGeneral (F := Ideal) (φ₁ := .f32) (φ₂ := .f32) dr none (V c main_v66 : FVec Ideal S100000x128 .f32) (V c main_arg6 : FVec Ideal S128x64 .f32) (((cfg2.win 2).blk t).view.emb (ix2 p q))
  rw [hout]
  refine (block_product_apply _ _ p q).trans ?_
  refine Eq.trans ?_ (host_product_apply dr hdr _ _ _ q).symm
  refine Finset.sum_congr rfl fun k _ => ?_
  rw [hx k, hw k]

/-- An element of the result array is in point t's block iff each coordinate is in the block's range on its axis. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v67).slice (win2_2.rect t)).set ↔ _
  rw [View.set_slice_whole, Rect.mem_set_unit]
  exact Iff.rfl

/-- The ten blocks tile the result: row r lies in the block of point r / 10000, and that point writes back. -/
theorem blocks_cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨hb, hlo, hhi⟩ := Cert.LibBlocks.row_in_block (nb := 10) (bs := 10000) (r := (i 0).val) (by decide) hi0
  obtain ⟨t, ht⟩ := block_has_point ⟨(i 0).val / 10000, hb⟩
  have ht' : t.val = (i 0).val / 10000 := ht
  obtain ⟨e0, e1, e2, e3, e4, e5, e6⟩ := block_indices t
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the region: the host's product of the two arrays as the region found them. -/
theorem arr (dr : DotDims S100000x128 S128x64 S100000x64) (hdr : dr = DotDims.plain 100000 128 64) (c : Dev nD) :
    ((dat2 (F := Ideal) V c).arrAt 2 cfg2.N : FVec Ideal S100000x64 .f32)
      = Host.dotGeneral (F := Ideal) (φ₁ := .f32) (φ₂ := .f32) dr none (V c main_v66 : FVec Ideal S100000x128 .f32) (V c main_arg6 : FVec Ideal S128x64 .f32) :=
  (dat2 (F := Ideal) V c).arrAt_eq_of_cover 2 _ (fun t _ => written_back_eq V dr hdr c t) blocks_cover

end Cert.Proof.Region2

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«159991_j83399674954443_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.Region3.lean ====
/-
  The edge network. The edge features [1600000, 64] are worked in two hundred blocks of 8000 consecutive rows. On each
  block the kernel computes  max(block · w1 + b1, 0) · w2 + b2  with both products on the matrix unit from zero
  accumulators, the bias rows [1, 64] and [1, 2] broadcast down the rows, and writes the [8000, 2] result back as the
  same rows. Each row of the result depends only on the same row of the features, so entry (r, q) is entry (r, q) of
  the same two dense layers applied to the whole array on the host; the two hundred blocks tile the result.
-/
import proofs.«159991_j83399674954443_1_alg».proof.Proof.Gen.KernelIdeal.Frame
import proofs.«159991_j83399674954443_1_alg».proof.Proof.LibDenseLayer
import Idealize.ShloMosaic.Lib.Pipeline.Value

set_option maxRecDepth 16384

noncomputable section

namespace Cert.Proof.Region3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The kernel's two product records are the plain rows-by-columns ones. -/
theorem dk1 : dot_S8000x64_S64x64_S8000x64_1_0_0_1_n_n = DotDims.plain 8000 64 64 := rfl
theorem dk2 : dot_S8000x64_S64x2_S8000x2_1_0_0_1_n_n = DotDims.plain 8000 64 2 := rfl

/-- The two dense layers on the host, applied to whole arrays: features X [1600000, 64], first weights and bias row,
    rectifier, second weights and bias row. -/
abbrev G (d1 : DotDims S1600000x64 S64x64 S1600000x64) (d2 : DotDims S1600000x64 S64x2 S1600000x2)
    (hb1 : S1x64.BroadcastsInDim S1600000x64 ![0, 1]) (hb2 : S1x2.BroadcastsInDim S1600000x2 ![0, 1])
    (hz : S_.BroadcastsInDim S1600000x64 ![])
    (X : FVec Ideal S1600000x64 .f32) (W1 : FVec Ideal S64x64 .f32) (B1 : FVec Ideal S1x64 .f32)
    (W2 : FVec Ideal S64x2 .f32) (B2 : FVec Ideal S1x2 .f32) : FVec Ideal S1600000x2 .f32 :=
  addf (Host.dotGeneral (F := Ideal) (φ₁ := .f32) (φ₂ := .f32) d2 none
        (maximumf
          (addf (Host.dotGeneral (F := Ideal) (φ₁ := .f32) (φ₂ := .f32) d1 none X W1)
                (broadcastInDim S1600000x64 ![0, 1] hb1 B1))
          (broadcastInDim S1600000x64 ![] hz (constant (F := Ideal) S_ .f32 0x00000000#32)))
        W2)
      (broadcastInDim S1600000x2 ![0, 1] hb2 B2)

/-- One entry of the block's result against one entry of the arrays' result: entry (p, q) of the kernel's two layers
    on a block x whose row p is row r of X is entry (r, q) of the two layers on X. The hidden layer's row p on the
    block is its row r on the array (first layer, rectified), and that feeds the second layer the same way. -/
theorem pay_entry (d1 : DotDims S1600000x64 S64x64 S1600000x64) (hd1 : d1 = DotDims.plain 1600000 64 64)
    (d2 : DotDims S1600000x64 S64x2 S1600000x2) (hd2 : d2 = DotDims.plain 1600000 64 2)
    (hb1 : S1x64.BroadcastsInDim S1600000x64 ![0, 1]) (hb2 : S1x2.BroadcastsInDim S1600000x2 ![0, 1])
    (hz : S_.BroadcastsInDim S1600000x64 ![])
    (x : FVec Ideal S8000x64 .f32) (X : FVec Ideal S1600000x64 .f32) (W1 : FVec Ideal S64x64 .f32)
    (B1 : FVec Ideal S1x64 .f32) (W2 : FVec Ideal S64x2 .f32) (B2 : FVec Ideal S1x2 .f32)
    (p : Fin 8000) (r : Fin 1600000) (h0 : ∀ k : Fin 64, x (ix2 p k) = X (ix2 r k)) (q : Fin 2) :
    k3_pay1 (F := Ideal) x W1 B1 W2 B2 (ix2 p q) = G d1 d2 hb1 hb2 hz X W1 B1 W2 B2 (ix2 r q) := by
  unfold k3_pay1
  exact Cert.LibDenseLayer.out_entry (n := 8000) (N := 1600000) (K := 64) (b := 2) _ dk2 d2 hd2 _ _ _ hb2 _ _ W2 B2 p r
    (fun k => Cert.LibDenseLayer.hidden_entry (n := 8000) (N := 1600000) (K := 64) (b := 64) _ dk1 d1 hd1 _ _ _ hb1 hz _ X W1 B1 p r
      (fun k' => by rw [shapeCast_self]; exact h0 k') k) q

/-- The zero offsets of a two-axis block, as the constant function. -/
theorem off_zero : (![0, 0] : Fin 2 → Nat) = fun _ => 0 := Cert.LibBlocks.off2_zero

/-- The index maps at every point of the grid: at point t the feature window and the result window are at
    block (t, 0); the four parameter windows are at block (0, 0). -/
theorem idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The grid has two hundred points. -/
theorem point_lt (t : Fin cfg3.N) : t.val < 200 := by have h := t.isLt; have hN : cfg3.N = 200 := N_3; omega

/-- The first weights' window holds the whole array at every point: block (0, 0) of a window whose block is the array. -/
theorem blk1 (c : Dev nD) (t : Fin cfg3.N) : iblk3 (F := Ideal) V c 1 t = (V c main_arg8 : FVec Ideal S64x64 .f32) := by
  obtain ⟨-, -, e0, e1, -⟩ := idx_facts t
  funext y
  show V c main_arg8 (((cfg3.win 1).blk t).view.emb y) = V c main_arg8 y
  refine congrArg _ ?_
  funext a; apply Fin.ext
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- The first bias row's window holds the whole row at every point. -/
theorem blk2 (c : Dev nD) (t : Fin cfg3.N) : iblk3 (F := Ideal) V c 2 t = (V c main_v101 : FVec Ideal S1x64 .f32) := by
  obtain ⟨-, -, -, -, e0, e1, -⟩ := idx_facts t
  funext y
  show V c main_v101 (((cfg3.win 2).blk t).view.emb y) = V c main_v101 y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- The second weights' window holds the whole array at every point. -/
theorem blk3 (c : Dev nD) (t : Fin cfg3.N) : iblk3 (F := Ideal) V c 3 t = (V c main_arg10 : FVec Ideal S64x2 .f32) := by
  obtain ⟨-, -, -, -, -, -, e0, e1, -⟩ := idx_facts t
  funext y
  show V c main_arg10 (((cfg3.win 3).blk t).view.emb y) = V c main_arg10 y
  refine congrArg _ ?_
  funext a; apply Fin.ext
  match a with
  | ⟨0, _⟩ => show win3_3.index t (0 : Fin 2) * 64 + 1 * (y 0).val = (y 0).val; omega
  | ⟨1, _⟩ => show win3_3.index t (1 : Fin 2) * 2 + 1 * (y 1).val = (y 1).val; omega

/-- The second bias row's window holds the whole row at every point. -/
theorem blk4 (c : Dev nD) (t : Fin cfg3.N) : iblk3 (F := Ideal) V c 4 t = (V c main_v102 : FVec Ideal S1x2 .f32) := by
  obtain ⟨-, -, -, -, -, -, -, -, e0, e1, -⟩ := idx_facts t
  funext y
  show V c main_v102 (((cfg3.win 4).blk t).view.emb y) = V c main_v102 y
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 2 + 1 * (y 1).val = (y 1).val; omega

/-- Row p of the feature block at point t is row 8000 t + p of the feature array. -/
theorem blk0_row (c : Dev nD) (t : Fin cfg3.N) (p : Fin 8000) (r : Fin 1600000) (hr : r.val = t.val * 8000 + p.val)
    (k : Fin 64) :
    (iblk3 (F := Ideal) V c 0 t : FVec Ideal S8000x64 .f32) (ix2 p k) = (V c main_v100 : FVec Ideal S1600000x64 .f32) (ix2 r k) := by
  obtain ⟨e0, e1, -⟩ := idx_facts t
  show V c main_v100 (((cfg3.win 0).blk t).view.emb (ix2 p k)) = V c main_v100 (ix2 r k)
  refine congrArg _ ?_
  funext a; apply Fin.ext
  match a with
  | ⟨0, _⟩ => show win3_0.index t (0 : Fin 2) * 8000 + 1 * p.val = r.val; omega
  | ⟨1, _⟩ => show win3_0.index t (1 : Fin 2) * 64 + 1 * k.val = k.val; omega

/-- Entry (p, q) of the result block at point t sits at entry (8000 t + p, q) of the result array. -/
theorem blk5_emb (t : Fin cfg3.N) (p : Fin 8000) (q : Fin 2) (r : Fin 1600000) (hr : r.val = t.val * 8000 + p.val) :
    ((cfg3.win 5).blk t).view.emb (ix2 p q) = (ix2 r q : S1600000x2.Idx) := by
  obtain ⟨-, -, -, -, -, -, -, -, -, -, e0, e1⟩ := idx_facts t
  funext a; apply Fin.ext
  match a with
  | ⟨0, _⟩ => show win3_5.index t (0 : Fin 2) * 8000 + 1 * p.val = r.val; omega
  | ⟨1, _⟩ => show win3_5.index t (1 : Fin 2) * 2 + 1 * q.val = q.val; omega

/-- What point t writes back is block t of the two dense layers of the arrays as the region found them. -/
theorem flushed_eq (d1 : DotDims S1600000x64 S64x64 S1600000x64) (hd1 : d1 = DotDims.plain 1600000 64 64)
    (d2 : DotDims S1600000x64 S64x2 S1600000x2) (hd2 : d2 = DotDims.plain 1600000 64 2)
    (hb1 : S1x64.BroadcastsInDim S1600000x64 ![0, 1]) (hb2 : S1x2.BroadcastsInDim S1600000x2 ![0, 1])
    (hz : S_.BroadcastsInDim S1600000x64 ![]) (c : Dev nD) (t : Fin cfg3.N) :
    (dat3 (F := Ideal) V c).flushed 5 t
      = ((cfg3.win 5).blk t).view.read (Elt Ideal)
          (G d1 d2 hb1 hb2 hz (V c main_v100) (V c main_arg8) (V c main_v101) (V c main_arg10) (V c main_v102)) := by
  show (cfg3.win 5).cut (grid3.coords t) ((dat3 V c).after 5 t) = _
  rw [after3_5]
  unfold out3_5
  rw [View.canon_unit_zero off_zero]
  simp only [View.ld_unit_zero (S := S8000x64) off_zero, View.ld_unit_zero (S := S64x64) off_zero,
    View.ld_unit_zero (S := S1x64) off_zero, View.ld_unit_zero (S := S64x2) off_zero,
    View.ld_unit_zero (S := S1x2) off_zero]
  rw [blk1, blk2, blk3, blk4]
  funext j
  obtain ⟨p, q, rfl⟩ : ∃ (p : Fin 8000) (q : Fin 2), j = ix2 p q := ⟨j 0, j 1, eq_ix2 j⟩
  have hlt : t.val * 8000 + p.val < 1600000 := by have := point_lt t; have := p.isLt; omega
  show k3_pay1 (F := Ideal) (iblk3 V c 0 t) (V c main_arg8) (V c main_v101) (V c main_arg10) (V c main_v102) (ix2 p q)
    = G d1 d2 hb1 hb2 hz (V c main_v100) (V c main_arg8) (V c main_v101) (V c main_arg10) (V c main_v102)
        (((cfg3.win 5).blk t).view.emb (ix2 p q))
  rw [blk5_emb t p q ⟨t.val * 8000 + p.val, hlt⟩ rfl]
  exact pay_entry d1 hd1 d2 hd2 hb1 hb2 hz _ _ _ _ _ _ p ⟨t.val * 8000 + p.val, hlt⟩
    (fun k => blk0_row V c t p ⟨t.val * 8000 + p.val, hlt⟩ rfl k) q

/-- An index of the result array is in point t's block iff each coordinate is in the block's range on its axis. -/
theorem mem_blk (t : Fin cfg3.N) (i : S1600000x2.Idx) :
    i ∈ ((cfg3.win 5).blk t).view.set ↔ ∀ a : Fin 2, win3_5.index t a * S8000x2.size a ≤ (i a).val ∧ (i a).val < win3_5.index t a * S8000x2.size a + S8000x2.size a := by
  show i ∈ ((View.whole main_v103).slice (win3_5.rect t)).set ↔ _
  rw [View.set_slice_whole, Rect.mem_set_unit]
  exact Iff.rfl

/-- The two hundred blocks cover the result array: row r is in block r / 8000. -/
theorem covered (i : S1600000x2.Idx) :
    ∃ t : Fin cfg3.N, (cfg3.win 5).flush t = true ∧ i ∈ ((cfg3.win 5).blk t).view.set := by
  have hi0 : (i 0).val < 1600000 := (i 0).isLt
  have hi1 : (i 1).val < 2 := (i 1).isLt
  have hN : cfg3.N = 200 := N_3
  obtain ⟨hq, hlo, hhi⟩ := Cert.LibBlocks.row_in_block (nb := 200) (bs := 8000) (r := (i 0).val) (by omega) (by omega)
  let t : Fin cfg3.N := ⟨(i 0).val / 8000, by omega⟩
  obtain ⟨-, -, -, -, -, -, -, -, -, -, e0, e1⟩ := idx_facts t
  have et : t.val = (i 0).val / 8000 := rfl
  refine ⟨t, flush3_5 t, ?_⟩
  rw [mem_blk]
  intro a
  match a with
  | ⟨0, _⟩ => show win3_5.index t (0 : Fin 2) * 8000 ≤ (i 0).val ∧ (i 0).val < win3_5.index t (0 : Fin 2) * 8000 + 8000; omega
  | ⟨1, _⟩ => show win3_5.index t (1 : Fin 2) * 2 ≤ (i 1).val ∧ (i 1).val < win3_5.index t (1 : Fin 2) * 2 + 2; omega

/-- The result array after the region: the two dense layers on the host, applied to the arrays as the region found
    them (features, first weights, first bias row, second weights, second bias row). -/
theorem arr (d1 : DotDims S1600000x64 S64x64 S1600000x64) (hd1 : d1 = DotDims.plain 1600000 64 64)
    (d2 : DotDims S1600000x64 S64x2 S1600000x2) (hd2 : d2 = DotDims.plain 1600000 64 2)
    (hb1 : S1x64.BroadcastsInDim S1600000x64 ![0, 1]) (hb2 : S1x2.BroadcastsInDim S1600000x2 ![0, 1])
    (hz : S_.BroadcastsInDim S1600000x64 ![]) (c : Dev nD) :
    ((dat3 (F := Ideal) V c).arrAt 5 cfg3.N : FVec Ideal S1600000x2 .f32)
      = addf (Host.dotGeneral (F := Ideal) (φ₁ := .f32) (φ₂ := .f32) d2 none
            (maximumf
              (addf (Host.dotGeneral (F := Ideal) (φ₁ := .f32) (φ₂ := .f32) d1 none
                      (V c main_v100 : FVec Ideal S1600000x64 .f32) (V c main_arg8 : FVec Ideal S64x64 .f32))
                    (broadcastInDim S1600000x64 ![0, 1] hb1 (V c main_v101 : FVec Ideal S1x64 .f32)))
              (broadcastInDim S1600000x64 ![] hz (constant (F := Ideal) S_ .f32 0x00000000#32)))
            (V c main_arg10 : FVec Ideal S64x2 .f32))
          (broadcastInDim S1600000x2 ![0, 1] hb2 (V c main_v102 : FVec Ideal S1x2 .f32)) :=
  (dat3 (F := Ideal) V c).arrAt_eq_of_cover 5
    (G d1 d2 hb1 hb2 hz (V c main_v100) (V c main_arg8) (V c main_v101) (V c main_arg10) (V c main_v102))
    (fun t _ => flushed_eq V d1 hd1 d2 hd2 hb1 hb2 hz c t) covered

end Cert.Proof.Region3

end
-- ==== Proof.KRegions.lean ====
/-
  The kernel's four calls, seen from the host program. A call changes only its own arrays: the inputs it reads end as
  they were, its result array ends at the value the call computes, and every other buffer is untouched. So the buffers
  the rest of the program still reads (arguments, index lists, edge norm) pass through each call, and each call's
  result array is the host's product (for the edge network: the host's two dense layers) of what its input arrays
  held when the call was entered.
-/
import proofs.«159991_j83399674954443_1_alg».proof.Proof.Gen.KernelIdeal.Frame
import proofs.«159991_j83399674954443_1_alg».proof.Proof.KLive
import proofs.«159991_j83399674954443_1_alg».proof.Proof.Region0
import proofs.«159991_j83399674954443_1_alg».proof.Proof.Region1
import proofs.«159991_j83399674954443_1_alg».proof.Proof.Region2
import proofs.«159991_j83399674954443_1_alg».proof.Proof.Region3

set_option maxRecDepth 16384

noncomputable section

namespace Cert.Proof.KHost

open Cert.KernelIdeal Cert.KernelIdeal.Gen
open Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg)
variable (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x64 .f32) (x7 : FVec Ideal S64 .f32) (x8 : FVec Ideal S64x64 .f32) (x9 : FVec Ideal S64 .f32) (x10 : FVec Ideal S64x2 .f32) (x11 : FVec Ideal S2 .f32)

/-! ## The live buffers pass through each call -/

/-- The first call reads the features and the first weights, which end as they were; it writes none of the other
    live buffers. -/
theorem Live.region0 (c : Dev nD) (h : Live (W3 (F := Ideal) m ρ c) x0 x1 x2 x3 x4 x5 x6 x7 x8 x9 x10 x11) : Live (W4 (F := Ideal) m ρ c) x0 x1 x2 x3 x4 x5 x6 x7 x8 x9 x10 x11 :=
  ⟨⟨(((W4_arr m ρ c 0).trans (((dat0 (V3 m ρ) c).arrAt_in 0 rfl _).trans (A_eq0 (V3 m ρ) c 0))).trans h.args.a0),
    ((W4_of_ne m ρ c main_arg1 (by decide)).trans h.args.a1),
    (((W4_arr m ρ c 1).trans (((dat0 (V3 m ρ) c).arrAt_in 1 rfl _).trans (A_eq0 (V3 m ρ) c 1))).trans h.args.a2),
    ((W4_of_ne m ρ c main_arg3 (by decide)).trans h.args.a3),
    ((W4_of_ne m ρ c main_arg4 (by decide)).trans h.args.a4),
    ((W4_of_ne m ρ c main_arg5 (by decide)).trans h.args.a5),
    ((W4_of_ne m ρ c main_arg6 (by decide)).trans h.args.a6),
    ((W4_of_ne m ρ c main_arg7 (by decide)).trans h.args.a7),
    ((W4_of_ne m ρ c main_arg8 (by decide)).trans h.args.a8),
    ((W4_of_ne m ρ c main_arg9 (by decide)).trans h.args.a9),
    ((W4_of_ne m ρ c main_arg10 (by decide)).trans h.args.a10),
    ((W4_of_ne m ρ c main_arg11 (by decide)).trans h.args.a11)⟩,
   ⟨((W4_of_ne m ρ c main_v1 (by decide)).trans h.idx.v1),
    ((W4_of_ne m ρ c main_v3 (by decide)).trans h.idx.v3),
    ((W4_of_ne m ρ c main_v5 (by decide)).trans h.idx.v5),
    ((W4_of_ne m ρ c main_v6 (by decide)).trans h.idx.v6)⟩,
   (W4_of_ne m ρ c main_v30 (by decide)).trans h.v30⟩

/-- The second call reads the second weights, which end as they were; it writes none of the other live buffers. -/
theorem Live.region1 (c : Dev nD) (h : Live (W6 (F := Ideal) m ρ c) x0 x1 x2 x3 x4 x5 x6 x7 x8 x9 x10 x11) : Live (W7 (F := Ideal) m ρ c) x0 x1 x2 x3 x4 x5 x6 x7 x8 x9 x10 x11 :=
  ⟨⟨((W7_of_ne m ρ c main_arg0 (by decide)).trans h.args.a0),
    ((W7_of_ne m ρ c main_arg1 (by decide)).trans h.args.a1),
    ((W7_of_ne m ρ c main_arg2 (by decide)).trans h.args.a2),
    ((W7_of_ne m ρ c main_arg3 (by decide)).trans h.args.a3),
    (((W7_arr m ρ c 1).trans (((dat1 (V6 m ρ) c).arrAt_in 1 rfl _).trans (A_eq1 (V6 m ρ) c 1))).trans h.args.a4),
    ((W7_of_ne m ρ c main_arg5 (by decide)).trans h.args.a5),
    ((W7_of_ne m ρ c main_arg6 (by decide)).trans h.args.a6),
    ((W7_of_ne m ρ c main_arg7 (by decide)).trans h.args.a7),
    ((W7_of_ne m ρ c main_arg8 (by decide)).trans h.args.a8),
    ((W7_of_ne m ρ c main_arg9 (by decide)).trans h.args.a9),
    ((W7_of_ne m ρ c main_arg10 (by decide)).trans h.args.a10),
    ((W7_of_ne m ρ c main_arg11 (by decide)).trans h.args.a11)⟩,
   ⟨((W7_of_ne m ρ c main_v1 (by decide)).trans h.idx.v1),
    ((W7_of_ne m ρ c main_v3 (by decide)).trans h.idx.v3),
    ((W7_of_ne m ρ c main_v5 (by decide)).trans h.idx.v5),
    ((W7_of_ne m ρ c main_v6 (by decide)).trans h.idx.v6)⟩,
   (W7_of_ne m ρ c main_v30 (by decide)).trans h.v30⟩

/-- The third call reads the third weights, which end as they were; it writes none of the other live buffers. -/
theorem Live.region2 (c : Dev nD) (h : Live (W9 (F := Ideal) m ρ c) x0 x1 x2 x3 x4 x5 x6 x7 x8 x9 x10 x11) : Live (W10 (F := Ideal) m ρ c) x0 x1 x2 x3 x4 x5 x6 x7 x8 x9 x10 x11 :=
  ⟨⟨((W10_of_ne m ρ c main_arg0 (by decide)).trans h.args.a0),
    ((W10_of_ne m ρ c main_arg1 (by decide)).trans h.args.a1),
    ((W10_of_ne m ρ c main_arg2 (by decide)).trans h.args.a2),
    ((W10_of_ne m ρ c main_arg3 (by decide)).trans h.args.a3),
    ((W10_of_ne m ρ c main_arg4 (by decide)).trans h.args.a4),
    ((W10_of_ne m ρ c main_arg5 (by decide)).trans h.args.a5),
    (((W10_arr m ρ c 1).trans (((dat2 (V9 m ρ) c).arrAt_in 1 rfl _).trans (A_eq2 (V9 m ρ) c 1))).trans h.args.a6),
    ((W10_of_ne m ρ c main_arg7 (by decide)).trans h.args.a7),
    ((W10_of_ne m ρ c main_arg8 (by decide)).trans h.args.a8),
    ((W10_of_ne m ρ c main_arg9 (by decide)).trans h.args.a9),
    ((W10_of_ne m ρ c main_arg10 (by decide)).trans h.args.a10),
    ((W10_of_ne m ρ c main_arg11 (by decide)).trans h.args.a11)⟩,
   ⟨((W10_of_ne m ρ c main_v1 (by decide)).trans h.idx.v1),
    ((W10_of_ne m ρ c main_v3 (by decide)).trans h.idx.v3),
    ((W10_of_ne m ρ c main_v5 (by decide)).trans h.idx.v5),
    ((W10_of_ne m ρ c main_v6 (by decide)).trans h.idx.v6)⟩,
   (W10_of_ne m ρ c main_v30 (by decide)).trans h.v30⟩

/-! ## Each call's result array -/

/-- The first node product: features times first weights. -/
theorem out0 (c : Dev nD) (h : Live (W3 (F := Ideal) m ρ c) x0 x1 x2 x3 x4 x5 x6 x7 x8 x9 x10 x11) :
    W4 (F := Ideal) m ρ c (Proc.devRef .tc main_v31) = val_main_v7 (F := Ideal) x0 x2 := by
  refine (W4_arr m ρ c 2).trans ((Cert.Proof.Region0.arr (V3 m ρ) Cert.ReferenceIdeal.dot_S100000x128_S128x128_S100000x128_1_0_0_1_n_n rfl c).trans ?_)
  show Host.dotGeneral (F := Ideal) (φ₁ := .f32) (φ₂ := .f32) Cert.ReferenceIdeal.dot_S100000x128_S128x128_S100000x128_1_0_0_1_n_n none
      (W3 (F := Ideal) m ρ c (Proc.devRef .tc main_arg0)) (W3 (F := Ideal) m ρ c (Proc.devRef .tc main_arg2)) = _
  rw [h.args.a0, h.args.a2]
  rfl

/-- The second node product: what the first layer left, times the second weights. -/
theorem out1 (c : Dev nD) (h : Live (W6 (F := Ideal) m ρ c) x0 x1 x2 x3 x4 x5 x6 x7 x8 x9 x10 x11) (X : FVec Ideal S100000x128 .f32)
    (hX : W6 (F := Ideal) m ρ c (Proc.devRef .tc main_v48) = X) :
    W7 (F := Ideal) m ρ c (Proc.devRef .tc main_v49)
      = Host.dotGeneral (F := Ideal) (φ₁ := .f32) (φ₂ := .f32) Cert.ReferenceIdeal.dot_S100000x128_S128x128_S100000x128_1_0_0_1_n_n none X x4 := by
  refine (W7_arr m ρ c 2).trans ((Cert.Proof.Region1.arr (V6 m ρ) Cert.ReferenceIdeal.dot_S100000x128_S128x128_S100000x128_1_0_0_1_n_n rfl c).trans ?_)
  show Host.dotGeneral (F := Ideal) (φ₁ := .f32) (φ₂ := .f32) Cert.ReferenceIdeal.dot_S100000x128_S128x128_S100000x128_1_0_0_1_n_n none
      (W6 (F := Ideal) m ρ c (Proc.devRef .tc main_v48)) (W6 (F := Ideal) m ρ c (Proc.devRef .tc main_arg4)) = _
  rw [hX, h.args.a4]

/-- The third node product: what the second layer left, times the third weights. -/
theorem out2 (c : Dev nD) (h : Live (W9 (F := Ideal) m ρ c) x0 x1 x2 x3 x4 x5 x6 x7 x8 x9 x10 x11) (X : FVec Ideal S100000x128 .f32)
    (hX : W9 (F := Ideal) m ρ c (Proc.devRef .tc main_v66) = X) :
    W10 (F := Ideal) m ρ c (Proc.devRef .tc main_v67)
      = Host.dotGeneral (F := Ideal) (φ₁ := .f32) (φ₂ := .f32) Cert.ReferenceIdeal.dot_S100000x128_S128x64_S100000x64_1_0_0_1_n_n none X x6 := by
  refine (W10_arr m ρ c 2).trans ((Cert.Proof.Region2.arr (V9 m ρ) Cert.ReferenceIdeal.dot_S100000x128_S128x64_S100000x64_1_0_0_1_n_n rfl c).trans ?_)
  show Host.dotGeneral (F := Ideal) (φ₁ := .f32) (φ₂ := .f32) Cert.ReferenceIdeal.dot_S100000x128_S128x64_S100000x64_1_0_0_1_n_n none
      (W9 (F := Ideal) m ρ c (Proc.devRef .tc main_v66)) (W9 (F := Ideal) m ρ c (Proc.devRef .tc main_arg6)) = _
  rw [hX, h.args.a6]

/-- The edge network: the two dense layers of the reference on the edge features E and the two bias rows. -/
theorem out3 (c : Dev nD) (h : Live (W11 (F := Ideal) m ρ c) x0 x1 x2 x3 x4 x5 x6 x7 x8 x9 x10 x11) (E : FVec Ideal S1600000x64 .f32)
    (hE : W11 (F := Ideal) m ρ c (Proc.devRef .tc main_v100) = E)
    (h101 : W11 (F := Ideal) m ρ c (Proc.devRef .tc main_v101) = val_main_v165 (F := Ideal) x9)
    (h102 : W11 (F := Ideal) m ρ c (Proc.devRef .tc main_v102) = val_main_v170 (F := Ideal) x11) :
    W12 (F := Ideal) m ρ c (Proc.devRef .tc main_v103)
      = addf (Host.dotGeneral (F := Ideal) (φ₁ := .f32) (φ₂ := .f32) Cert.ReferenceIdeal.dot_S1600000x64_S64x2_S1600000x2_1_0_0_1_n_n none
            (maximumf (addf (Host.dotGeneral (F := Ideal) (φ₁ := .f32) (φ₂ := .f32) Cert.ReferenceIdeal.dot_S1600000x64_S64x64_S1600000x64_1_0_0_1_n_n none E x8)
                        (val_main_v166 (F := Ideal) x9))
                      (val_main_call5_v0 (F := Ideal)))
            x10)
          (val_main_v171 (F := Ideal) x11) := by
  refine (W12_arr m ρ c 5).trans ((Cert.Proof.Region3.arr (V11 m ρ)
    Cert.ReferenceIdeal.dot_S1600000x64_S64x64_S1600000x64_1_0_0_1_n_n rfl
    Cert.ReferenceIdeal.dot_S1600000x64_S64x2_S1600000x2_1_0_0_1_n_n rfl
    Cert.ReferenceIdeal.Gen.bcast_S1x64_S1600000x64_0_1 Cert.ReferenceIdeal.Gen.bcast_S1x2_S1600000x2_0_1
    Cert.ReferenceIdeal.Gen.bcast_S_S1600000x64 c).trans ?_)
  show addf (Host.dotGeneral (F := Ideal) (φ₁ := .f32) (φ₂ := .f32) Cert.ReferenceIdeal.dot_S1600000x64_S64x2_S1600000x2_1_0_0_1_n_n none
        (maximumf
          (addf (Host.dotGeneral (F := Ideal) (φ₁ := .f32) (φ₂ := .f32) Cert.ReferenceIdeal.dot_S1600000x64_S64x64_S1600000x64_1_0_0_1_n_n none
                  (W11 (F := Ideal) m ρ c (Proc.devRef .tc main_v100)) (W11 (F := Ideal) m ρ c (Proc.devRef .tc main_arg8)))
                (broadcastInDim S1600000x64 ![0, 1] Cert.ReferenceIdeal.Gen.bcast_S1x64_S1600000x64_0_1 (W11 (F := Ideal) m ρ c (Proc.devRef .tc main_v101))))
          (broadcastInDim S1600000x64 ![] Cert.ReferenceIdeal.Gen.bcast_S_S1600000x64 (constant (F := Ideal) S_ .f32 0x00000000#32)))
        (W11 (F := Ideal) m ρ c (Proc.devRef .tc main_arg10)))
      (broadcastInDim S1600000x2 ![0, 1] Cert.ReferenceIdeal.Gen.bcast_S1x2_S1600000x2_0_1 (W11 (F := Ideal) m ρ c (Proc.devRef .tc main_v102))) = _
  rw [hE, h.args.a8, h101, h.args.a10, h102]
  rfl

end Cert.Proof.KHost

end
-- ==== Proof.KHost0.lean ====
/-
  The kernel's host operations before its first node product, read one stretch at a time over arbitrary buffer
  contents W, each result named by the reference's stage that computes the same array from the edge array x1.

  First stretch: the source and destination rows of the edge array, each followed by the self loops 0 … 99999; the
  degree of every node, counted by scattering ones at the destinations; its test "degree > 0" and its power -1/2.
  The kernel scatters at the destination list as it is; the reference first wraps negative destinations by the
  number of nodes. Where that wrap changes nothing (hv: the wrapped list is the list), the two degree arrays are
  the same scatter, and so are the test and the power.
  Second stretch: the inverse square root of the degree, zero where the degree is zero (a select).
  Third stretch: the edge norm, the product of that array gathered at the sources and at the destinations.
-/
import proofs.«159991_j83399674954443_1_alg».proof.Proof.Gen.KernelIdeal.Launch
import proofs.«159991_j83399674954443_1_alg».proof.Proof.RefReadP
import Idealize.ShloMosaic.Lib.StableHlo.Run
import Idealize.ShloMosaic.PureOps.Ideal

set_option maxRecDepth 16384

noncomputable section

namespace Cert.Proof.KHost

open Cert.KernelIdeal Cert.KernelIdeal.Gen
open Cert.ReferenceIdeal.ReadP
open Idealize.ShloMosaic Idealize.ShloMosaic.TcCoe Idealize.SL.Sem Idealize.ShloMosaic.StableHlo

variable (W : Valuation τ sig (Elt Ideal))

variable (x1 : IVec S2x1600000 32)

/-! ## First stretch -/

set_option maxHeartbeats 4000000 in
/-- The edges' sources. -/
theorem s0_v1 (h1 : W (Proc.devRef .tc main_arg1) = x1) :
    StableHlo.after (hostOps0 (F := Ideal)) W (Proc.devRef .tc main_v1) = val_main_v1 (F := Ideal) x1 := by
  simp only [hostOps0]; after_results; rw [h1]; rfl

set_option maxHeartbeats 4000000 in
/-- The edges' destinations. -/
theorem s0_v3 (h1 : W (Proc.devRef .tc main_arg1) = x1) :
    StableHlo.after (hostOps0 (F := Ideal)) W (Proc.devRef .tc main_v3) = val_main_v3 (F := Ideal) x1 := by
  simp only [hostOps0]; after_results; rw [h1]; rfl

set_option maxHeartbeats 4000000 in
/-- Sources followed by the self loops. -/
theorem s0_v5 (h1 : W (Proc.devRef .tc main_arg1) = x1) :
    StableHlo.after (hostOps0 (F := Ideal)) W (Proc.devRef .tc main_v5) = val_main_v5 (F := Ideal) x1 := by
  simp only [hostOps0]; after_results; rw [h1]; rfl

set_option maxHeartbeats 4000000 in
/-- Destinations followed by the self loops. -/
theorem s0_v6 (h1 : W (Proc.devRef .tc main_arg1) = x1) :
    StableHlo.after (hostOps0 (F := Ideal)) W (Proc.devRef .tc main_v6) = val_main_v6 (F := Ideal) x1 := by
  simp only [hostOps0]; after_results; rw [h1]; rfl

set_option maxHeartbeats 4000000 in
/-- "degree > 0", the degree counted at the destination list as it is: the reference's test where its wrap is the identity. -/
theorem s0_v12 (h1 : W (Proc.devRef .tc main_arg1) = x1) (hv : val_main_v13 (F := Ideal) x1 = val_main_v6 (F := Ideal) x1) :
    StableHlo.after (hostOps0 (F := Ideal)) W (Proc.devRef .tc main_v12) = val_main_v18 (F := Ideal) x1 := by
  simp only [hostOps0]; after_results; rw [h1]
  unfold val_main_v18 val_main_v16 val_main_v14; rw [hv]; rfl

set_option maxHeartbeats 4000000 in
/-- The degree to the power -1/2, likewise. -/
theorem s0_v14 (h1 : W (Proc.devRef .tc main_arg1) = x1) (hv : val_main_v13 (F := Ideal) x1 = val_main_v6 (F := Ideal) x1) :
    StableHlo.after (hostOps0 (F := Ideal)) W (Proc.devRef .tc main_v14) = val_main_v20 (F := Ideal) x1 := by
  simp only [hostOps0]; after_results; rw [h1]
  unfold val_main_v20 val_main_v16 val_main_v14; rw [hv]; rfl

set_option maxHeartbeats 4000000 in
/-- The zero the select falls back to. -/
theorem s0_cst3 :
    StableHlo.after (hostOps0 (F := Ideal)) W (Proc.devRef .tc main_cst_3) = val_main_cst_4 (F := Ideal) := by
  simp only [hostOps0]; after_results; rfl

/-! ## Second stretch -/

set_option maxHeartbeats 4000000 in
/-- The inverse square root of the degree where the degree is positive, zero elsewhere. -/
theorem s01_v15 (h12 : W (Proc.devRef .tc main_v12) = val_main_v18 (F := Ideal) x1)
    (h14 : W (Proc.devRef .tc main_v14) = val_main_v20 (F := Ideal) x1)
    (hc : W (Proc.devRef .tc main_cst_3) = val_main_cst_4 (F := Ideal)) :
    StableHlo.after (hostOps0_1 (F := Ideal)) W (Proc.devRef .tc main_v15) = val_main_v21 (F := Ideal) x1 := by
  -- the three operations of the inlined select, written over the buffers themselves
  show StableHlo.after
      [ StableHlo.unary main_cst_3 main_call0_v0 (id : (⟨S_, .f32⟩ : BufTy).Contents (Elt Ideal) → (⟨S_, .f32⟩ : BufTy).Contents (Elt Ideal)) _ _,
        StableHlo.unary main_call0_v0 main_call0_v1 (broadcastInDim S100000 ![] bcast_S_S100000 : (⟨S_, .f32⟩ : BufTy).Contents (Elt Ideal) → (⟨S100000, .f32⟩ : BufTy).Contents (Elt Ideal)) _ _,
        StableHlo.ternary main_v12 main_v14 main_call0_v1 main_v15 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) _ _ _ _ ]
      W (Proc.devRef .tc main_v15) = _
  after_results; rw [h12, h14, hc]; rfl

/-! ## Third stretch -/

set_option maxHeartbeats 4000000 in
/-- The edge norm: the inverse square roots at an edge's two ends, multiplied. -/
theorem s02_v30 (h15 : W (Proc.devRef .tc main_v15) = val_main_v21 (F := Ideal) x1)
    (h5 : W (Proc.devRef .tc main_v5) = val_main_v5 (F := Ideal) x1)
    (h6 : W (Proc.devRef .tc main_v6) = val_main_v6 (F := Ideal) x1) :
    StableHlo.after (hostOps0_2 (F := Ideal)) W (Proc.devRef .tc main_v30) = val_main_v36 (F := Ideal) x1 := by
  simp only [hostOps0_2]; after_results; rw [h15, h5, h6]; rfl

end Cert.Proof.KHost

end
-- ==== Proof.KHost1.lean ====
/-
  The kernel's host operations between its first and second node products, over arbitrary buffer contents W.
  Long stretch: gather the product's rows at the edges' sources (negative sources wrapped by the number of nodes),
  scale each gathered row by its edge's norm, add the scaled rows up at the edges' destinations into a zero array,
  add the bias row. Short stretch: the rectifier. These are the reference's own operations on the same arrays, so
  the results are the reference's stages of the same name once the inputs are.
-/
import proofs.«159991_j83399674954443_1_alg».proof.Proof.Gen.KernelIdeal.Launch
import proofs.«159991_j83399674954443_1_alg».proof.Proof.RefReadP
import Idealize.ShloMosaic.Lib.StableHlo.Run
import Idealize.ShloMosaic.PureOps.Ideal

set_option maxRecDepth 16384

noncomputable section

namespace Cert.Proof.KHost

open Cert.KernelIdeal Cert.KernelIdeal.Gen
open Cert.ReferenceIdeal.ReadP
open Idealize.ShloMosaic Idealize.ShloMosaic.TcCoe Idealize.SL.Sem Idealize.ShloMosaic.StableHlo

variable (W : Valuation τ sig (Elt Ideal))

variable (x0 : FVec Ideal S100000x128 .f32) (x1 : IVec S2x1600000 32) (x2 : FVec Ideal S128x128 .f32) (x3 : FVec Ideal S128 .f32)

set_option maxHeartbeats 4000000 in
/-- The first layer before the rectifier. -/
theorem s1_v47 (h31 : W (Proc.devRef .tc main_v31) = val_main_v7 (F := Ideal) x0 x2)
    (h30 : W (Proc.devRef .tc main_v30) = val_main_v36 (F := Ideal) x1)
    (h5 : W (Proc.devRef .tc main_v5) = val_main_v5 (F := Ideal) x1)
    (h6 : W (Proc.devRef .tc main_v6) = val_main_v6 (F := Ideal) x1)
    (h3 : W (Proc.devRef .tc main_arg3) = x3) :
    StableHlo.after (hostOps1 (F := Ideal)) W (Proc.devRef .tc main_v47) = val_main_v52 (F := Ideal) x0 x1 x2 x3 := by
  simp only [hostOps1]; after_results; rw [h31, h30, h5, h6, h3]; rfl

set_option maxHeartbeats 4000000 in
/-- The first layer. -/
theorem s11_v48 (h47 : W (Proc.devRef .tc main_v47) = val_main_v52 (F := Ideal) x0 x1 x2 x3) :
    StableHlo.after (hostOps1_1 (F := Ideal)) W (Proc.devRef .tc main_v48) = val_main_v53 (F := Ideal) x0 x1 x2 x3 := by
  -- the three operations of the inlined rectifier, written over the buffers themselves
  show StableHlo.after
      [ StableHlo.nullary main_call1_cst (constant (F := Ideal) S_ .f32 0x00000000#32 : (⟨S_, .f32⟩ : BufTy).Contents (Elt Ideal)) _,
        StableHlo.unary main_call1_cst main_call1_v0 (broadcastInDim S100000x128 ![] bcast_S_S100000x128 : (⟨S_, .f32⟩ : BufTy).Contents (Elt Ideal) → (⟨S100000x128, .f32⟩ : BufTy).Contents (Elt Ideal)) _ _,
        StableHlo.binary main_v47 main_call1_v0 main_v48 (maximumf (F := Ideal) (s := S100000x128) (φ := .f32)) _ _ _ ]
      W (Proc.devRef .tc main_v48) = _
  after_results; rw [h47]; rfl

end Cert.Proof.KHost

end
-- ==== Proof.KHost2.lean ====
/-
  The kernel's host operations between its second and third node products, over arbitrary buffer contents W: the
  same gather at the sources, scaling by the edge norm, sum at the destinations and bias row as after the first
  product, then the rectifier; the reference's stages of the second layer once the inputs are.
-/
import proofs.«159991_j83399674954443_1_alg».proof.Proof.Gen.KernelIdeal.Launch
import proofs.«159991_j83399674954443_1_alg».proof.Proof.RefReadP
import Idealize.ShloMosaic.Lib.StableHlo.Run
import Idealize.ShloMosaic.PureOps.Ideal

set_option maxRecDepth 16384

noncomputable section

namespace Cert.Proof.KHost

open Cert.KernelIdeal Cert.KernelIdeal.Gen
open Cert.ReferenceIdeal.ReadP
open Idealize.ShloMosaic Idealize.ShloMosaic.TcCoe Idealize.SL.Sem Idealize.ShloMosaic.StableHlo

variable (W : Valuation τ sig (Elt Ideal))

variable (x0 : FVec Ideal S100000x128 .f32) (x1 : IVec S2x1600000 32) (x2 : FVec Ideal S128x128 .f32) (x3 : FVec Ideal S128 .f32) (x4 : FVec Ideal S128x128 .f32) (x5 : FVec Ideal S128 .f32)

set_option maxHeartbeats 4000000 in
/-- The second layer before the rectifier. -/
theorem s2_v65 (h49 : W (Proc.devRef .tc main_v49) = val_main_v54 (F := Ideal) x0 x1 x2 x3 x4)
    (h30 : W (Proc.devRef .tc main_v30) = val_main_v83 (F := Ideal) x1)
    (h5 : W (Proc.devRef .tc main_v5) = val_main_v5 (F := Ideal) x1)
    (h6 : W (Proc.devRef .tc main_v6) = val_main_v6 (F := Ideal) x1)
    (ha : W (Proc.devRef .tc main_arg5) = x5) :
    StableHlo.after (hostOps2 (F := Ideal)) W (Proc.devRef .tc main_v65) = val_main_v99 (F := Ideal) x0 x1 x2 x3 x4 x5 := by
  simp only [hostOps2]; after_results; rw [h49, h30, h5, h6, ha]; rfl

set_option maxHeartbeats 4000000 in
/-- The second layer. -/
theorem s21_v66 (h65 : W (Proc.devRef .tc main_v65) = val_main_v99 (F := Ideal) x0 x1 x2 x3 x4 x5) :
    StableHlo.after (hostOps2_1 (F := Ideal)) W (Proc.devRef .tc main_v66) = val_main_v100 (F := Ideal) x0 x1 x2 x3 x4 x5 := by
  -- the three operations of the inlined rectifier, written over the buffers themselves
  show StableHlo.after
      [ StableHlo.nullary main_call2_cst (constant (F := Ideal) S_ .f32 0x00000000#32 : (⟨S_, .f32⟩ : BufTy).Contents (Elt Ideal)) _,
        StableHlo.unary main_call2_cst main_call2_v0 (broadcastInDim S100000x128 ![] bcast_S_S100000x128 : (⟨S_, .f32⟩ : BufTy).Contents (Elt Ideal) → (⟨S100000x128, .f32⟩ : BufTy).Contents (Elt Ideal)) _ _,
        StableHlo.binary main_v65 main_call2_v0 main_v66 (maximumf (F := Ideal) (s := S100000x128) (φ := .f32)) _ _ _ ]
      W (Proc.devRef .tc main_v66) = _
  after_results; rw [h65]; rfl

end Cert.Proof.KHost

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.KHost3.lean ====
/-
  The kernel's host operations between its third node product and the edge network, over arbitrary buffer contents W:
  the third layer (gather, scale by the edge norm, sum at the destinations, bias row; no rectifier), then the edge
  features: the mean of the third layer's rows at an edge's two ends. The two bias vectors of the edge network are
  laid out as rows [1, 64] and [1, 2] by a reshape; as a row, a reshaped vector is the vector broadcast along the
  second axis, which is how the reference lays them out.
-/
import proofs.«159991_j83399674954443_1_alg».proof.Proof.Gen.KernelIdeal.Launch
import proofs.«159991_j83399674954443_1_alg».proof.Proof.RefReadP
import Idealize.ShloMosaic.Lib.StableHlo.Run
import Idealize.ShloMosaic.PureOps.Ideal
import proofs.«159991_j83399674954443_1_alg».proof.Proof.LibLayout

set_option maxRecDepth 16384

noncomputable section

namespace Cert.Proof.KHost

open Cert.KernelIdeal Cert.KernelIdeal.Gen
open Cert.ReferenceIdeal.ReadP
open Idealize.ShloMosaic Idealize.ShloMosaic.TcCoe Idealize.SL.Sem Idealize.ShloMosaic.StableHlo

variable (W : Valuation τ sig (Elt Ideal))

variable (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x64 .f32) (x7 : FVec Ideal S64 .f32) (x8 : FVec Ideal S64x64 .f32) (x9 : FVec Ideal S64 .f32) (x10 : FVec Ideal S64x2 .f32) (x11 : FVec Ideal S2 .f32)

set_option maxHeartbeats 4000000 in
/-- The edge features. -/
theorem s3_v100 (h67 : W (Proc.devRef .tc main_v67) = val_main_v101 (F := Ideal) x0 x1 x2 x3 x4 x5 x6)
    (h30 : W (Proc.devRef .tc main_v30) = val_main_v130 (F := Ideal) x1)
    (h5 : W (Proc.devRef .tc main_v5) = val_main_v5 (F := Ideal) x1)
    (h6 : W (Proc.devRef .tc main_v6) = val_main_v6 (F := Ideal) x1)
    (h1 : W (Proc.devRef .tc main_v1) = val_main_v1 (F := Ideal) x1)
    (h3 : W (Proc.devRef .tc main_v3) = val_main_v3 (F := Ideal) x1)
    (ha : W (Proc.devRef .tc main_arg7) = x7) :
    StableHlo.after (hostOps3 (F := Ideal)) W (Proc.devRef .tc main_v100) = val_main_v163 (F := Ideal) x0 x1 x2 x3 x4 x5 x6 x7 := by
  simp only [hostOps3]; after_results_simp; rw [h67, h30, h5, h6, h1, h3, ha]; rfl

set_option maxHeartbeats 4000000 in
/-- The first bias of the edge network as a row. -/
theorem s3_v101 (ha : W (Proc.devRef .tc main_arg9) = x9) :
    StableHlo.after (hostOps3 (F := Ideal)) W (Proc.devRef .tc main_v101) = val_main_v165 (F := Ideal) x9 := by
  simp only [hostOps3]; after_results_simp; rw [ha]
  exact Cert.Proof.Layout.reshape_row_eq_broadcastInDim (n := 64) x9 _ _

set_option maxHeartbeats 4000000 in
/-- The second bias of the edge network as a row. -/
theorem s3_v102 (ha : W (Proc.devRef .tc main_arg11) = x11) :
    StableHlo.after (hostOps3 (F := Ideal)) W (Proc.devRef .tc main_v102) = val_main_v170 (F := Ideal) x11 := by
  simp only [hostOps3]; after_results_simp; rw [ha]
  exact Cert.Proof.Layout.reshape_row_eq_broadcastInDim (n := 2) x11 _ _

end Cert.Proof.KHost

end
-- ==== Proof.PreDecode.lean ====
/-
  What the precondition says about the destination indices. The precondition's last conjunct is "every entry of row 1
  of the edge array is at least 0" (as signed 32-bit words). The destination list used by every scatter is that row
  followed by the self loops 0, 1, …, 99999, all non-negative too. On a non-negative index the wrap of negative
  indices, "if d < 0 then d + 100000 else d", is the identity; so the wrapped destination list, wherever the
  reference forms it before counting degrees, is the destination list itself.
-/
import proofs.«159991_j83399674954443_1_alg».proof.Defs
import proofs.«159991_j83399674954443_1_alg».proof.Proof.Gen.Pre_finite_inputs
import proofs.«159991_j83399674954443_1_alg».proof.Proof.RefReadP
import Idealize.ShloMosaic.Lib.ValueIdx
import Idealize.ShloMosaic.Lib.Pipeline.Value
import Idealize.ShloMosaic.Lib.ReduceAll
import Idealize.ShloMosaic.Lib.StableHlo.Predicate

noncomputable section

namespace Cert.Proof.PreDecode

open Cert.ReferenceIdeal Cert.ReferenceIdeal.Gen Cert.ReferenceIdeal.ReadP
open Cert.Pre_finite_inputs.Gen
open Idealize.ShloMosaic Idealize.ShloMosaic.ValueIdx

/-! ## Words -/

/-- A word that compares "at least 0" (signed) is not below 0. -/
theorem slt_zero_of_sge (a : BitVec 32) (h : IntOp.cmpi .sge a 0#32 = 1#1) : a.slt 0#32 = false := by
  unfold IntOp.cmpi at h
  have h' := (StableHlo.Predicate.ofBool_eq_one_iff _).1 h
  simp only [BitVec.sle, BitVec.slt, decide_eq_true_eq, decide_eq_false_iff_not] at h' ⊢
  simp at h' ⊢
  omega

/-- A natural number below 2³¹, as a word, is not below 0. -/
theorem slt_zero_ofNat (n : Nat) (hn : n < 2 ^ 31) : (BitVec.ofNat 32 n).slt 0#32 = false := by
  simp only [BitVec.slt, StableHlo.Predicate.toInt_ofNat_small n hn, decide_eq_false_iff_not]
  simp

/-! ## Lists of words -/

/-- On a list of non-negative words the wrap "if d < 0 then d + e else d" is the identity: the mask "d < 0" is 0
    at every entry, so the choice returns its last operand. -/
theorem wrap_id {s : Shape} (d z e : IVec s 32) (hz : ∀ i, z i = 0#32) (hd : ∀ i, (d i).slt 0#32 = false) :
    select (cmpi .slt d z) (addi d e) d = d := by
  funext i
  show Scalar.select (IntOp.cmpi .slt (d i) (z i)) (IntOp.addi (d i) (e i)) (d i) = d i
  rw [hz i]
  unfold IntOp.cmpi
  simp only [hd i]
  exact select_zero _ _

/-- 1600000 non-negative words followed by 0, 1, …, 99999 are 1700000 non-negative words: an entry below position
    1600000 is an entry of the first list, an entry at position 1600000 + k is the word k < 100000 < 2³¹. -/
theorem concat_nonneg (x₁ : IVec ⟨1, ![1600000]⟩ 32)
    (h : Shape.Concatenates [(⟨1, ![1600000]⟩ : Shape), ⟨1, ![100000]⟩] ⟨1, ![1700000]⟩ 0)
    (hx : ∀ i, (x₁ i).slt 0#32 = false) (j : (⟨1, ![1700000]⟩ : Shape).Idx) :
    (concatenate ⟨1, ![1700000]⟩ 0 [⟨⟨1, ![1600000]⟩, x₁⟩, ⟨⟨1, ![100000]⟩, iotaInDim ⟨1, ![100000]⟩ 32 0⟩] h j).slt 0#32 = false := by
  by_cases hj : (j 0).val < 1600000
  · rw [concatenate_pair_apply_left (0 : Fin 1) x₁ _ h j rfl (ix1 ⟨(j 0).val, hj⟩)
      (fun b => by have : b = 0 := Subsingleton.elim _ _; subst this; rfl)]
    exact hx _
  · have hjl : (j 0).val < 1700000 := (j 0).isLt
    have hj2 : (j 0).val - 1600000 < 100000 := by omega
    rw [concatenate_pair_apply_right (s₂ := ⟨1, ![100000]⟩) (0 : Fin 1) x₁ (iotaInDim ⟨1, ![100000]⟩ 32 0) h j rfl rfl
      (ix1 (n := 100000) ⟨(j 0).val - 1600000, hj2⟩)
      (fun b hb => absurd (Subsingleton.elim _ _) hb)
      (by show (j 0).val - 1600000 + 1600000 = (j 0).val; omega)]
    show (BitVec.ofNat 32 ((j 0).val - 1600000)).slt 0#32 = false
    exact slt_zero_ofNat _ (by omega)

/-! ## The precondition read at one edge -/

variable (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x64 .f32) (x7 : FVec Ideal S64 .f32) (x8 : FVec Ideal S64x64 .f32) (x9 : FVec Ideal S64 .f32) (x10 : FVec Ideal S64x2 .f32) (x11 : FVec Ideal S2 .f32)

/-- The precondition is a conjunction whose last conjunct is the conjunction, over all edges, of "row 1 of the edge
    array at this edge is at least 0"; it is true, so each of these is: every edge's destination is non-negative. -/
theorem edge_dst_nonneg (hpre : Cert.Pre_finite_inputs.fn (F := Ideal) x0 x1 x2 x3 x4 x5 x6 x7 x8 x9 x10 x11 = fun _ => 1#1) (i : S1600000.Idx) :
    (val_main_v3 (F := Ideal) x1 i).slt 0#32 = false := by
  have h0 := congrFun hpre ValueIdx.ix0
  unfold Cert.Pre_finite_inputs.fn Cert.Pre_finite_inputs.fn_part1 Cert.Pre_finite_inputs.fn_part2 Cert.Pre_finite_inputs.fn_part3 at h0
  have h1 := (IntOp.andi_eq_one.1 h0).2
  -- the rank-0 shape has one index, so the conjunction over all edges is over every edge
  haveI : Subsingleton Cert.Pre_finite_inputs.S_.Idx := ⟨fun a b => funext fun d => d.elim0⟩
  have h2 := Host.reduce_andi_all _ _ _ _ _ h1 i
  exact slt_zero_of_sge _ h2

/-- Under the precondition no destination index (an edge's, or a self loop's) is negative. -/
theorem dst_nonneg (hpre : Cert.Pre_finite_inputs.fn (F := Ideal) x0 x1 x2 x3 x4 x5 x6 x7 x8 x9 x10 x11 = fun _ => 1#1) (i : S1700000.Idx) :
    (val_main_v6 (F := Ideal) x1 i).slt 0#32 = false := by
  unfold val_main_v6
  exact concat_nonneg (val_main_v3 (F := Ideal) x1) _ (edge_dst_nonneg x0 x1 x2 x3 x4 x5 x6 x7 x8 x9 x10 x11 hpre) i

/-- The wrap of negative indices is the identity on the destination list: where the first layer's degrees are counted … -/
theorem v13_eq (hpre : Cert.Pre_finite_inputs.fn (F := Ideal) x0 x1 x2 x3 x4 x5 x6 x7 x8 x9 x10 x11 = fun _ => 1#1) :
    val_main_v13 (F := Ideal) x1 = val_main_v6 (F := Ideal) x1 := by
  unfold val_main_v13 val_main_v10 val_main_v12
  exact wrap_id _ _ _ (fun i => by rw [val_main_v9_apply]; rfl) (dst_nonneg x0 x1 x2 x3 x4 x5 x6 x7 x8 x9 x10 x11 hpre)

/-- … the second layer's … -/
theorem v60_eq (hpre : Cert.Pre_finite_inputs.fn (F := Ideal) x0 x1 x2 x3 x4 x5 x6 x7 x8 x9 x10 x11 = fun _ => 1#1) :
    val_main_v60 (F := Ideal) x1 = val_main_v6 (F := Ideal) x1 := by
  unfold val_main_v60 val_main_v57 val_main_v59
  exact wrap_id _ _ _ (fun i => by rw [val_main_v56_apply]; rfl) (dst_nonneg x0 x1 x2 x3 x4 x5 x6 x7 x8 x9 x10 x11 hpre)

/-- … and the third layer's. -/
theorem v107_eq (hpre : Cert.Pre_finite_inputs.fn (F := Ideal) x0 x1 x2 x3 x4 x5 x6 x7 x8 x9 x10 x11 = fun _ => 1#1) :
    val_main_v107 (F := Ideal) x1 = val_main_v6 (F := Ideal) x1 := by
  unfold val_main_v107 val_main_v104 val_main_v106
  exact wrap_id _ _ _ (fun i => by rw [val_main_v103_apply]; rfl) (dst_nonneg x0 x1 x2 x3 x4 x5 x6 x7 x8 x9 x10 x11 hpre)

end Cert.Proof.PreDecode

end
-- ==== Proof.RefNorm.lean ====
/-
  The reference computes the edge norm afresh in each of its three layers: count the degrees by scattering ones at
  the wrapped destination list, take the inverse square root where the degree is positive, gather at both ends of
  every edge, multiply. The three computations differ only in where the wrapped destination list is formed. Where
  each wrapped list is the destination list itself, the three norms are one array.
-/
import proofs.«159991_j83399674954443_1_alg».proof.Proof.RefReadP
import Idealize.ShloMosaic.PureOps.Ideal

set_option maxRecDepth 16384

noncomputable section

namespace Cert.Proof.RefNorm

open Cert.ReferenceIdeal Cert.ReferenceIdeal.Gen Cert.ReferenceIdeal.ReadP
open Idealize.ShloMosaic

variable (x1 : IVec S2x1600000 32)

/-- The second layer's edge norm is the first layer's. -/
theorem norm83 (h13 : val_main_v13 (F := Ideal) x1 = val_main_v6 (F := Ideal) x1)
    (h60 : val_main_v60 (F := Ideal) x1 = val_main_v6 (F := Ideal) x1) :
    val_main_v83 (F := Ideal) x1 = val_main_v36 (F := Ideal) x1 := by
  -- Both norms, written out down to where the wrapped destination list enters the degree count.
  unfold val_main_v83 val_main_v75 val_main_v82 val_main_v68 val_main_v65 val_main_v67 val_main_v63 val_main_v61
    val_main_v36 val_main_v28 val_main_v35 val_main_v21 val_main_v18 val_main_v20 val_main_v16 val_main_v14
  -- Both wrapped lists are the destination list; what remains differs only in the names of equal constants.
  rw [h13, h60]
  rfl

/-- The third layer's edge norm is the first layer's. -/
theorem norm130 (h13 : val_main_v13 (F := Ideal) x1 = val_main_v6 (F := Ideal) x1)
    (h107 : val_main_v107 (F := Ideal) x1 = val_main_v6 (F := Ideal) x1) :
    val_main_v130 (F := Ideal) x1 = val_main_v36 (F := Ideal) x1 := by
  -- Both norms, written out down to where the wrapped destination list enters the degree count.
  unfold val_main_v130 val_main_v122 val_main_v129 val_main_v115 val_main_v112 val_main_v114 val_main_v110 val_main_v108
    val_main_v36 val_main_v28 val_main_v35 val_main_v21 val_main_v18 val_main_v20 val_main_v16 val_main_v14
  -- Both wrapped lists are the destination list; what remains differs only in the names of equal constants.
  rw [h13, h107]
  rfl

end Cert.Proof.RefNorm

end
-- ==== Proof.KValue.lean ====
/-
  The kernel's result, from the launch to the return. Walking the host program's stretches and the four kernel calls in
  order, each buffer the next step reads holds the reference's stage of the same meaning, computed from the kernel's
  own argument arrays: index lists and edge norm (the degrees counted at destinations that the precondition makes
  non-negative, so that the reference's wrap of negative destinations changes nothing), then for each of the three
  layers the node product (the blocked product on the matrix unit is the host's product), the gather at the sources,
  the scaling, the sum at the destinations and the bias, then the edge features and the edge network. The result
  buffer therefore ends at the reference's last stage of those arguments.
-/
import proofs.«159991_j83399674954443_1_alg».proof.Defs
import proofs.«159991_j83399674954443_1_alg».proof.Proof.Gen.Pre_finite_inputs
import proofs.«159991_j83399674954443_1_alg».proof.Proof.KRegions
import proofs.«159991_j83399674954443_1_alg».proof.Proof.KHost0
import proofs.«159991_j83399674954443_1_alg».proof.Proof.KHost1
import proofs.«159991_j83399674954443_1_alg».proof.Proof.KHost2
import proofs.«159991_j83399674954443_1_alg».proof.Proof.KHost3
import proofs.«159991_j83399674954443_1_alg».proof.Proof.PreDecode
import proofs.«159991_j83399674954443_1_alg».proof.Proof.RefNorm

set_option maxRecDepth 16384

noncomputable section

namespace Cert.Proof.KValue

open Cert.KernelIdeal Cert.KernelIdeal.Gen
open Cert.ReferenceIdeal.ReadP
open Idealize.ShloMosaic Idealize.ShloMosaic.TcCoe Idealize.SL.Sem Idealize.ShloMosaic.StableHlo
open Cert.Proof.KHost

variable (m : (ℓ : Loc nD τ sig) → Buf (Elt Ideal) ℓ) (ρ : Dev nD → PrngReg)

/-- The kernel's argument array 0 at the launch. -/
abbrev ka0 (c : Dev nD) := m ((c.tc : Thread nD τ).loc main_arg0)
/-- The kernel's argument array 1 at the launch. -/
abbrev ka1 (c : Dev nD) := m ((c.tc : Thread nD τ).loc main_arg1)
/-- The kernel's argument array 2 at the launch. -/
abbrev ka2 (c : Dev nD) := m ((c.tc : Thread nD τ).loc main_arg2)
/-- The kernel's argument array 3 at the launch. -/
abbrev ka3 (c : Dev nD) := m ((c.tc : Thread nD τ).loc main_arg3)
/-- The kernel's argument array 4 at the launch. -/
abbrev ka4 (c : Dev nD) := m ((c.tc : Thread nD τ).loc main_arg4)
/-- The kernel's argument array 5 at the launch. -/
abbrev ka5 (c : Dev nD) := m ((c.tc : Thread nD τ).loc main_arg5)
/-- The kernel's argument array 6 at the launch. -/
abbrev ka6 (c : Dev nD) := m ((c.tc : Thread nD τ).loc main_arg6)
/-- The kernel's argument array 7 at the launch. -/
abbrev ka7 (c : Dev nD) := m ((c.tc : Thread nD τ).loc main_arg7)
/-- The kernel's argument array 8 at the launch. -/
abbrev ka8 (c : Dev nD) := m ((c.tc : Thread nD τ).loc main_arg8)
/-- The kernel's argument array 9 at the launch. -/
abbrev ka9 (c : Dev nD) := m ((c.tc : Thread nD τ).loc main_arg9)
/-- The kernel's argument array 10 at the launch. -/
abbrev ka10 (c : Dev nD) := m ((c.tc : Thread nD τ).loc main_arg10)
/-- The kernel's argument array 11 at the launch. -/
abbrev ka11 (c : Dev nD) := m ((c.tc : Thread nD τ).loc main_arg11)

/-- Under the precondition the result buffer, at the last segment boundary, holds the reference's last stage of the
    kernel's argument arrays. -/
theorem result (hpre : Cert.Pre_KernelIdeal (hPre_finite_inputs := Cert.Pre_finite_inputs.Gen.facts) m) (c : Dev nD) :
    W12 (F := Ideal) m ρ c (Proc.devRef .tc main_v103)
      = val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  -- the kernel's argument arrays, and what the precondition says of the destination indices
  have hp : Cert.Pre_finite_inputs.fn (F := Ideal) (ka0 m c) (ka1 m c) (ka2 m c) (ka3 m c) (ka4 m c) (ka5 m c) (ka6 m c) (ka7 m c) (ka8 m c) (ka9 m c) (ka10 m c) (ka11 m c) = fun _ => 1#1 := hpre c
  have h13 := Cert.Proof.PreDecode.v13_eq (ka0 m c) (ka1 m c) (ka2 m c) (ka3 m c) (ka4 m c) (ka5 m c) (ka6 m c) (ka7 m c) (ka8 m c) (ka9 m c) (ka10 m c) (ka11 m c) hp
  have h60 := Cert.Proof.PreDecode.v60_eq (ka0 m c) (ka1 m c) (ka2 m c) (ka3 m c) (ka4 m c) (ka5 m c) (ka6 m c) (ka7 m c) (ka8 m c) (ka9 m c) (ka10 m c) (ka11 m c) hp
  have h107 := Cert.Proof.PreDecode.v107_eq (ka0 m c) (ka1 m c) (ka2 m c) (ka3 m c) (ka4 m c) (ka5 m c) (ka6 m c) (ka7 m c) (ka8 m c) (ka9 m c) (ka10 m c) (ka11 m c) hp
  -- at the launch the arguments hold themselves
  have args0 : Args (W0 (F := Ideal) m ρ c) (ka0 m c) (ka1 m c) (ka2 m c) (ka3 m c) (ka4 m c) (ka5 m c) (ka6 m c) (ka7 m c) (ka8 m c) (ka9 m c) (ka10 m c) (ka11 m c) := ⟨rfl, rfl, rfl, rfl, rfl, rfl, rfl, rfl, rfl, rfl, rfl, rfl⟩
  -- first stretch: index lists, the degree's test and power
  have idx1 : Idx (W1 (F := Ideal) m ρ c) (ka1 m c) :=
    ⟨s0_v1 _ (ka1 m c) args0.a1, s0_v3 _ (ka1 m c) args0.a1, s0_v5 _ (ka1 m c) args0.a1, s0_v6 _ (ka1 m c) args0.a1⟩
  have v12 := s0_v12 (W0 (F := Ideal) m ρ c) (ka1 m c) args0.a1 h13
  have v14 := s0_v14 (W0 (F := Ideal) m ρ c) (ka1 m c) args0.a1 h13
  have c3 := s0_cst3 (W0 (F := Ideal) m ρ c)
  have args1 : Args (W1 (F := Ideal) m ρ c) (ka0 m c) (ka1 m c) (ka2 m c) (ka3 m c) (ka4 m c) (ka5 m c) (ka6 m c) (ka7 m c) (ka8 m c) (ka9 m c) (ka10 m c) (ka11 m c) := Args.after0 _ _ _ _ _ _ _ _ _ _ _ _ _ args0
  -- second stretch: the inverse square root of the degree
  have v15 := s01_v15 (W1 (F := Ideal) m ρ c) (ka1 m c) v12 v14 c3
  have idx2 : Idx (W2 (F := Ideal) m ρ c) (ka1 m c) := Idx.after01 _ _ idx1
  have args2 : Args (W2 (F := Ideal) m ρ c) (ka0 m c) (ka1 m c) (ka2 m c) (ka3 m c) (ka4 m c) (ka5 m c) (ka6 m c) (ka7 m c) (ka8 m c) (ka9 m c) (ka10 m c) (ka11 m c) := Args.after01 _ _ _ _ _ _ _ _ _ _ _ _ _ args1
  -- third stretch: the edge norm
  have v30 := s02_v30 (W2 (F := Ideal) m ρ c) (ka1 m c) v15 idx2.v5 idx2.v6
  have live3 : Live (W3 (F := Ideal) m ρ c) (ka0 m c) (ka1 m c) (ka2 m c) (ka3 m c) (ka4 m c) (ka5 m c) (ka6 m c) (ka7 m c) (ka8 m c) (ka9 m c) (ka10 m c) (ka11 m c) :=
    ⟨Args.after02 _ _ _ _ _ _ _ _ _ _ _ _ _ args2, Idx.after02 _ _ idx2, v30⟩
  -- first layer
  have o0 := out0 m ρ _ _ _ _ _ _ _ _ _ _ _ _ c live3
  have live4 := Live.region0 m ρ _ _ _ _ _ _ _ _ _ _ _ _ c live3
  have v47 := s1_v47 (W4 (F := Ideal) m ρ c) (ka0 m c) (ka1 m c) (ka2 m c) (ka3 m c) o0 live4.v30 live4.idx.v5 live4.idx.v6 live4.args.a3
  have live5 : Live (W5 (F := Ideal) m ρ c) (ka0 m c) (ka1 m c) (ka2 m c) (ka3 m c) (ka4 m c) (ka5 m c) (ka6 m c) (ka7 m c) (ka8 m c) (ka9 m c) (ka10 m c) (ka11 m c) := Live.after1 _ _ _ _ _ _ _ _ _ _ _ _ _ live4
  have v48 := s11_v48 (W5 (F := Ideal) m ρ c) (ka0 m c) (ka1 m c) (ka2 m c) (ka3 m c) v47
  have live6 : Live (W6 (F := Ideal) m ρ c) (ka0 m c) (ka1 m c) (ka2 m c) (ka3 m c) (ka4 m c) (ka5 m c) (ka6 m c) (ka7 m c) (ka8 m c) (ka9 m c) (ka10 m c) (ka11 m c) := Live.after11 _ _ _ _ _ _ _ _ _ _ _ _ _ live5
  -- second layer
  have o1 : W7 (F := Ideal) m ρ c (Proc.devRef .tc main_v49) = val_main_v54 (F := Ideal) (ka0 m c) (ka1 m c) (ka2 m c) (ka3 m c) (ka4 m c) :=
    out1 m ρ _ _ _ _ _ _ _ _ _ _ _ _ c live6 _ v48
  have live7 := Live.region1 m ρ _ _ _ _ _ _ _ _ _ _ _ _ c live6
  have v65 := s2_v65 (W7 (F := Ideal) m ρ c) (ka0 m c) (ka1 m c) (ka2 m c) (ka3 m c) (ka4 m c) (ka5 m c) o1
    (live7.v30.trans (Cert.Proof.RefNorm.norm83 (ka1 m c) h13 h60).symm) live7.idx.v5 live7.idx.v6 live7.args.a5
  have live8 : Live (W8 (F := Ideal) m ρ c) (ka0 m c) (ka1 m c) (ka2 m c) (ka3 m c) (ka4 m c) (ka5 m c) (ka6 m c) (ka7 m c) (ka8 m c) (ka9 m c) (ka10 m c) (ka11 m c) := Live.after2 _ _ _ _ _ _ _ _ _ _ _ _ _ live7
  have v66 := s21_v66 (W8 (F := Ideal) m ρ c) (ka0 m c) (ka1 m c) (ka2 m c) (ka3 m c) (ka4 m c) (ka5 m c) v65
  have live9 : Live (W9 (F := Ideal) m ρ c) (ka0 m c) (ka1 m c) (ka2 m c) (ka3 m c) (ka4 m c) (ka5 m c) (ka6 m c) (ka7 m c) (ka8 m c) (ka9 m c) (ka10 m c) (ka11 m c) := Live.after21 _ _ _ _ _ _ _ _ _ _ _ _ _ live8
  -- third layer
  have o2 : W10 (F := Ideal) m ρ c (Proc.devRef .tc main_v67) = val_main_v101 (F := Ideal) (ka0 m c) (ka1 m c) (ka2 m c) (ka3 m c) (ka4 m c) (ka5 m c) (ka6 m c) :=
    out2 m ρ _ _ _ _ _ _ _ _ _ _ _ _ c live9 _ v66
  have live10 := Live.region2 m ρ _ _ _ _ _ _ _ _ _ _ _ _ c live9
  -- edge features and the two bias rows
  have v100 := s3_v100 (W10 (F := Ideal) m ρ c) (ka0 m c) (ka1 m c) (ka2 m c) (ka3 m c) (ka4 m c) (ka5 m c) (ka6 m c) (ka7 m c) o2
    (live10.v30.trans (Cert.Proof.RefNorm.norm130 (ka1 m c) h13 h107).symm) live10.idx.v5 live10.idx.v6 live10.idx.v1 live10.idx.v3
    live10.args.a7
  have v101 := s3_v101 (W10 (F := Ideal) m ρ c) (ka9 m c) live10.args.a9
  have v102 := s3_v102 (W10 (F := Ideal) m ρ c) (ka11 m c) live10.args.a11
  have live11 : Live (W11 (F := Ideal) m ρ c) (ka0 m c) (ka1 m c) (ka2 m c) (ka3 m c) (ka4 m c) (ka5 m c) (ka6 m c) (ka7 m c) (ka8 m c) (ka9 m c) (ka10 m c) (ka11 m c) := Live.after3 _ _ _ _ _ _ _ _ _ _ _ _ _ live10
  -- the edge network
  exact out3 m ρ _ _ _ _ _ _ _ _ _ _ _ _ c live11 _ v100 v101 v102

end Cert.Proof.KValue

end
-- ==== Proof.lean ====
/-
  A three-layer graph convolution followed by a two-layer network on the edges, in two arrangements.

  Both programs take node features x [100000, 128], an edge array [2, 1600000] (row 0 the sources, row 1 the
  destinations), three weight matrices with bias vectors and the edge network's two. Both append the self loops
  0 … 99999 to sources and destinations, count each node's degree by scattering ones at the destinations, take
  deg^(-1/2) where deg > 0 and 0 elsewhere, and give each edge the norm dinv(src) · dinv(dst). A layer maps h to
  (sum over the edges into a node of norm · (h W)(src)) + b, the first two followed by max(·, 0). The edge features
  are the mean of the last layer's rows at an edge's two ends; the result is max(ef W1 + b1, 0) W2 + b2, [1600000, 2].

  The kernel computes each of the three products h W in ten blocks of 10000 rows and the edge network in two hundred
  blocks of 8000 rows, on the matrix unit from a zero accumulator after a change of float format; over the extended
  reals the change of format is the identity and the blocked product is the host's product entry by entry, each row
  of the result depending only on the same row of the input. It counts the degrees once and reuses the norm; the
  reference counts them in every layer, to the same array. One difference is real: before counting, the reference
  wraps a negative destination d to d + 100000, and the kernel does not, so a negative destination would count
  towards another node's degree in the reference and towards none in the kernel. The precondition excludes it: every
  destination is at least 0 (the reference's own sums over the edges drop such an edge), and then the wrap changes
  nothing. Everything else is the same operation applied to equal arrays.
-/
import proofs.«159991_j83399674954443_1_alg».proof.Defs
import proofs.«159991_j83399674954443_1_alg».proof.Proof.Gen.Kernel
import proofs.«159991_j83399674954443_1_alg».proof.Proof.Gen.Kernel.Frame
import proofs.«159991_j83399674954443_1_alg».proof.Proof.Gen.KernelIdeal
import proofs.«159991_j83399674954443_1_alg».proof.Proof.Gen.KernelIdeal.Frame
import proofs.«159991_j83399674954443_1_alg».proof.Proof.Gen.ReferenceIdeal
import proofs.«159991_j83399674954443_1_alg».proof.Proof.Gen.Pre_finite_inputs
import proofs.«159991_j83399674954443_1_alg».proof.Proof.KRun
import proofs.«159991_j83399674954443_1_alg».proof.Proof.KValue
import proofs.«159991_j83399674954443_1_alg».proof.Proof.RefReadP
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Over the extended reals, from memories that agree on the arguments, both programs end with the reference's last
    stage of the arguments in their result buffers: the kernel by the walk through its stretches and calls, the
    reference by its run. -/
theorem algebraic : Cert.algebraic_KernelIdeal_ReferenceIdeal := by
  intro m ρ m' ρ' hpre hagree
  refine ⟨fun c => Cert.ReferenceIdeal.ReadP.val_main_v172 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.Proof.KValue.result m ρ hpre c), (h c).2⟩)
      (Cert.KernelIdeal.KRun.run_main m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8, e9, e10, e11⟩ := hagree c
    rw [(h c).1, Cert.ReferenceIdeal.ReadP.val_main_v172_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
